-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S64x64 : Shape := ⟨2, ![64, 64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S4x4096x64 .f32) (main_arg1 : FVec F S64x64 .f32) (main_arg2 : FVec F S64x64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S4x4096x64 : Shape := ⟨3, ![4, 4096, 64]⟩
abbrev S64x64 : Shape := ⟨2, ![64, 64]⟩
abbrev S1x512x64 : Shape := ⟨3, ![1, 512, 64]⟩
abbrev S1x4096x64 : Shape := ⟨3, ![1, 4096, 64]⟩
abbrev S512x64 : Shape := ⟨2, ![512, 64]⟩
abbrev S4096x64 : Shape := ⟨2, ![4096, 64]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S4x4096x64, .f32⟩
  | .hbm, ⟨1, _⟩ => ⟨S64x64, .f32⟩
  | .hbm, ⟨2, _⟩ => ⟨S64x64, .f32⟩
  | .hbm, ⟨3, _⟩ => ⟨S4x4096x64, .f32⟩
  | .local _ .vmem, ⟨0, _⟩ => ⟨S1x512x64, .f32⟩
  | .local _ .vmem, ⟨1, _⟩ => ⟨S1x512x64, .f32⟩
  | .local _ .vmem, ⟨2, _⟩ => ⟨S1x4096x64, .f32⟩
  | .local _ .vmem, ⟨3, _⟩ => ⟨S1x4096x64, .f32⟩
  | .local _ .vmem, ⟨4, _⟩ => ⟨S64x64, .f32⟩
  | .local _ .vmem, ⟨5, _⟩ => ⟨S64x64, .f32⟩
  | .local _ .vmem, ⟨6, _⟩ => ⟨S1x512x64, .f32⟩
  | .local _ .vmem, ⟨7, _⟩ => ⟨S1x512x64, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S64x64_S64x64_0_0 : ∀ a, (![0, 0] : Fin 2 → Nat) a + S64x64.size a ≤ S64x64.size a
  h_S64x64 : 0 < S64x64.numel
  reduces_S512x4096_S512 : S512x4096.Reduces [1] S512
  shapeCasts_S512_S512x1 : S512.ShapeCasts S512x1
  broadcasts_S512x1_S512x4096 : S512x1.Broadcasts S512x4096
  broadcasts_S512x1_S512x64 : S512x1.Broadcasts S512x64
  shapeCasts_S512x64_S1x512x64 : S512x64.ShapeCasts S1x512x64
  dot_S512x64_S64x64_S512x64_1_0_0_1_n_n_wf : DotDims.WF S512x64 S64x64 S512x64 [1] [0] [0] [1] [] []
  dot_S4096x64_S64x64_S4096x64_1_0_0_1_n_n_wf : DotDims.WF S4096x64 S64x64 S4096x64 [1] [0] [0] [1] [] []
  dot_S512x64_S4096x64_S512x4096_1_1_0_0_n_n_wf : DotDims.WF S512x64 S4096x64 S512x4096 [1] [1] [0] [0] [] []
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S4x4096x64.size a
  hwx0_0 : ∀ i : grid0.Coords, EltTy.bits .f32 = 32 ∨ (Rect.block (s := S4x4096x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S4x4096x64.size a
  hwx0_1 : ∀ i : grid0.Coords, EltTy.bits .f32 = 32 ∨ (Rect.block (s := S4x4096x64) S1x4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S4x4096x64.size a
  hwx0_4 : ∀ i : grid0.Coords, EltTy.bits .f32 = 32 ∨ (Rect.block (s := S4x4096x64) S1x512x64.size (cc0_transform_4 i) (hinb0_4 i)).WholeWords (EltTy.packing .f32)

variable [Facts₀]

def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S512x64_S4096x64_S512x4096_1_1_0_0_n_n : DotDims S512x64 S4096x64 S512x4096 where
  lhsContracting := [1]
  rhsContracting := [1]
  lhsNonContracting := [0]
  rhsNonContracting := [0]
  lhsBatch := []
  rhsBatch := []
  wf := dot_S512x64_S4096x64_S512x4096_1_1_0_0_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x64 : Shape := ⟨3, ![4, 4096, 64]⟩
abbrev S64x64 : Shape := ⟨2, ![64, 64]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S64x64, .f32⟩
  | .hbm, ⟨2, _⟩ => ⟨S64x64, .f32⟩
  | .hbm, ⟨3, _⟩ => ⟨S4x4096x64, .f32⟩
  | .hbm, ⟨4, _⟩ => ⟨S4x4096x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S_, .f32⟩
  | .hbm, ⟨13, _⟩ => ⟨S4x4096, .f32⟩
  | .hbm, ⟨14, _⟩ => ⟨S_, .f32⟩
  | .hbm, ⟨15, _⟩ => ⟨S4x4096, .f32⟩
  | .hbm, ⟨16, _⟩ => ⟨S4x4096, .f32⟩
  | .hbm, ⟨17, _⟩ => ⟨S4x4096x1, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S4x4096x4096, .f32⟩
  | .hbm, ⟨25, _⟩ => ⟨S4x4096x4096, .f32⟩
  | .hbm, ⟨26, _⟩ => ⟨S4x4096x64, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x64_S64x64_S4x4096x64_2_0_01_1_n_n_wf : DotDims.WF S4x4096x64 S64x64 S4x4096x64 [2] [0] [0, 1] [1] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x64_S64x64_S4x4096x64_2_0_01_1_n_n : DotDims S4x4096x64 S64x64 S4x4096x64 where
  lhsContracting := [2]
  rhsContracting := [0]
  lhsNonContracting := [0, 1]
  rhsNonContracting := [1]
  lhsBatch := []
  rhsBatch := []
  wf := dot_S4x4096x64_S64x64_S4x4096x64_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.FrameK.lean ====
/-
  The frame of the attention program: it runs to the end, faults nowhere, and leaves its three
  argument arrays as they were.

  The launch hands `inputs` to the kernel through TWO windows: window 0 reads the (1, 512, 64) block
  of the current query tile, window 1 the whole (1, 4096, 64) slab of the current batch element; windows 2
  and 3 are the two 64 × 64 matrices and window 4 the (1, 512, 64) output block. Both readers of `inputs`
  only read, so the array's full share is dealt as its two halves, one per window, and given back whole at
  the end. The body at a grid point loads the four input buffers whole, computes one value from them
  (`k0_pay1`), and stores it over the whole output buffer; so after the body every input buffer still
  holds its block and the output buffer holds that value of the four blocks. The grid has 32 points and
  every point writes its output block back.
-/
import proofs.«406537_j65481071409934_3_alg».proof.Proof.Gen.Kernel.Launch
import proofs.«406537_j65481071409934_3_alg».proof.Proof.Gen.Kernel.Skeleton
import proofs.«406537_j65481071409934_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core `c`'s buffers when the region is entered: as launched (the program is the region alone). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not, for any proof data
    whose array is `V`'s and whose body leaves the block in place: unfetched, the block index has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the one store take a whole buffer -/

abbrev rq : Rect S1x512x64 := Rect.unit (s := S1x512x64) ![0, 0, 0] S1x512x64.size inb_S1x512x64_S1x512x64_0_0_0
abbrev rk : Rect S1x4096x64 := Rect.unit (s := S1x4096x64) ![0, 0, 0] S1x4096x64.size inb_S1x4096x64_S1x4096x64_0_0_0
abbrev rm : Rect S64x64 := Rect.unit (s := S64x64) ![0, 0] S64x64.size inb_S64x64_S64x64_0_0

/-- The output buffer after the body: its one store, of the value computed from the four loads. -/
def out4 (x0 : Vec F S1x512x64 .f32) (x1 : Vec F S1x4096x64 .f32) (x2 x3 : Vec F S64x64 .f32) : Vec F S1x512x64 .f32 :=
  View.canon [⟨rq, k0_pay1 (View.ld x0 rq) (View.ld x1 rk) (View.ld x2 rm) (View.ld x3 rm)⟩]

/-- The store covers the buffer. -/
theorem cover4 (p0 : Vec F S1x512x64 .f32) (y : S1x512x64.Idx) :
    ∃ pc ∈ ([⟨rq, p0⟩] : List (View.Piece (Elt F) S1x512x64 .f32)), y ∈ pc.1.set :=
  View.cover_of_tiled [⟨rq, p0⟩] S1x512x64.size (by rfl) y

/-! ## The body's triple -/

set_option maxHeartbeats 1000000 in
/-- On whole buffers, the four inputs' at read contents `x0 … x3` and the output's at anything, the body runs to its
    end holding the inputs' as they were and the output's at `out4` of them. -/
theorem sound_kernel (c : Dev nD) (E : Set ℕ) (i : grid0.Coords)
    (arg2 : Memref sig .tc .vmem S1x512x64 .f32) (harg2 : arg2.IsWhole) (arg3 : Memref sig .tc .vmem S1x4096x64 .f32) (harg3 : arg3.IsWhole)
    (arg4 : Memref sig .tc .vmem S64x64 .f32) (harg4 : arg4.IsWhole) (arg5 : Memref sig .tc .vmem S64x64 .f32) (harg5 : arg5.IsWhole)
    (arg6 : Memref sig .tc .vmem S1x512x64 .f32) (harg6 : arg6.IsWhole)
    (x0 : Vec F S1x512x64 .f32) (x1 : Vec F S1x4096x64 .f32) (x2 x3 : Vec F S64x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out4 x0 x1 x2 x3)) -∗ K ⟨⟩))
      ⊢ wp frame (wpE (defs₀ (F := F)) Variants.none c none) E (cc0__attn_kernel i arg2 harg2 arg3 harg3 arg4 harg4 arg5 harg5 arg6 harg6) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The proof data -/

/-- The proof data on core `c`: the arrays as the region finds them; after the body at point `t` each input's buffer at
    its block and the output's at `out4` of the four blocks; the invariant the core's scoped buffers that are no
    staging buffer; the two readers of `inputs` hold a half share of it each, the matrices' readers the whole; nothing
    owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = out4 (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The arrays' shares at the region's entry -/

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- The four buffers behind the five windows, each whole at the full share, are the windows' arrays at the proof data's
    shares: `inputs`' full share is its left half, lent to the query-tile window, with its right half, lent to the slab
    window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e : (dats m 0 c).arrays ((dats m 0 c).arrAt · 0)
      = bigSep Finset.univ fun w : Fin 5 =>
          (((c.tc : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  rw [e, bigSep_W0, share0, share1, share2, share3, share4]
  have eL : (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_arg1) ↦{fullShare} V m c main_arg1)
          ∗ (((c.tc : Thread nD τ).loc main_arg2) ↦{fullShare} V m c main_arg2) ∗ (((c.tc : Thread nD τ).loc main_v0) ↦{fullShare} V m c main_v0)) := by
    unfold Pipeline.arrBufs
    exact bigSep_eq_bigSepL_of_eq [main_arg0, main_arg1, main_arg2, main_v0] (by decide) (by decide) _
  rw [eL]
  iintro ⟨H0, H1, H2, H3⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H2]; · iexact H2
  iexact H3

/-! ## The run and the frame -/

/-- The program up to the region is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- From any memory with zero counters every weakly fair execution of the program terminates, and every final state has
    each window's array at what the write-backs of all 32 points leave of its entry contents. -/
theorem run_main : θ_run defs (onTc (τ := τ) (main (F := F))) (s₀ m ρ)
    (fun r => ∀ (c : Dev nD) (w : Fin cfg0.W), r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none) (hsplit := hsplit m)
    (X := fun _ => iprop(emp)) (Y := fun _ => iprop(emp)) (Z := fun _ => iprop(emp))
    (hX := fun c => by rw [unscopedRest0_eq]; iintro -; isplitr <;> iempintro)
    (hin := fun c => (show iprop((emp : sProp 𝕄) ∗ Pipeline.scopedRest spec0 c) ⊢ Pipeline.scopedRest spec0 c from by
      iintro ⟨-, H⟩; iexact H))
    (hout := fun c => (show (Pipeline.scopedRest spec0 c : sProp 𝕄) ⊢ iprop(emp ∗ Pipeline.scopedRest spec0 c) from by
      iintro H; isplitr; · iempintro
      iexact H))
    (QY := fun _ _ => True)
    (hY := fun c s' => by
      iintro ⟨-, -, HSI⟩; imodintro
      isplitr; · ipureintro; trivial
      iexact HSI)
    (hQ := fun _ h c w => (h c).1 w)

/-- info: 'Cert.Kernel.Hand.run_main' depends on axioms: [propext, Classical.choice, Quot.sound] -/
#guard_msgs in #print axioms run_main

/-- The three argument arrays end as they began: each is the array of an input window, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c 0).trans (((dats m 0 c).arrAt_in 0 rfl _).trans (A_eq m c 0)),
      (h c 2).trans (((dats m 0 c).arrAt_in 2 rfl _).trans (A_eq m c 2)),
      (h c 3).trans (((dats m 0 c).arrAt_in 3 rfl _).trans (A_eq m c 3))⟩) (run_main m ρ)

end Cert.Kernel.Hand

end
-- ==== Proof.FrameKI.lean ====
/-
  The frame of the attention program: it runs to the end, faults nowhere, and leaves its three
  argument arrays as they were.

  The launch hands `inputs` to the kernel through TWO windows: window 0 reads the (1, 512, 64) block
  of the current query tile, window 1 the whole (1, 4096, 64) slab of the current batch element; windows 2
  and 3 are the two 64 × 64 matrices and window 4 the (1, 512, 64) output block. Both readers of `inputs`
  only read, so the array's full share is dealt as its two halves, one per window, and given back whole at
  the end. The body at a grid point loads the four input buffers whole, computes one value from them
  (`k0_pay1`), and stores it over the whole output buffer; so after the body every input buffer still
  holds its block and the output buffer holds that value of the four blocks. The grid has 32 points and
  every point writes its output block back.
-/
import proofs.«406537_j65481071409934_3_alg».proof.Proof.Gen.KernelIdeal.Launch
import proofs.«406537_j65481071409934_3_alg».proof.Proof.Gen.KernelIdeal.Skeleton
import proofs.«406537_j65481071409934_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core `c`'s buffers when the region is entered: as launched (the program is the region alone). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not, for any proof data
    whose array is `V`'s and whose body leaves the block in place: unfetched, the block index has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the one store take a whole buffer -/

abbrev rq : Rect S1x512x64 := Rect.unit (s := S1x512x64) ![0, 0, 0] S1x512x64.size inb_S1x512x64_S1x512x64_0_0_0
abbrev rk : Rect S1x4096x64 := Rect.unit (s := S1x4096x64) ![0, 0, 0] S1x4096x64.size inb_S1x4096x64_S1x4096x64_0_0_0
abbrev rm : Rect S64x64 := Rect.unit (s := S64x64) ![0, 0] S64x64.size inb_S64x64_S64x64_0_0

/-- The output buffer after the body: its one store, of the value computed from the four loads. -/
def out4 (x0 : Vec F S1x512x64 .f32) (x1 : Vec F S1x4096x64 .f32) (x2 x3 : Vec F S64x64 .f32) : Vec F S1x512x64 .f32 :=
  View.canon [⟨rq, k0_pay1 (View.ld x0 rq) (View.ld x1 rk) (View.ld x2 rm) (View.ld x3 rm)⟩]

/-- The store covers the buffer. -/
theorem cover4 (p0 : Vec F S1x512x64 .f32) (y : S1x512x64.Idx) :
    ∃ pc ∈ ([⟨rq, p0⟩] : List (View.Piece (Elt F) S1x512x64 .f32)), y ∈ pc.1.set :=
  View.cover_of_tiled [⟨rq, p0⟩] S1x512x64.size (by rfl) y

/-! ## The body's triple -/

set_option maxHeartbeats 1000000 in
/-- On whole buffers, the four inputs' at read contents `x0 … x3` and the output's at anything, the body runs to its
    end holding the inputs' as they were and the output's at `out4` of them. -/
theorem sound_kernel (c : Dev nD) (E : Set ℕ) (i : grid0.Coords)
    (arg2 : Memref sig .tc .vmem S1x512x64 .f32) (harg2 : arg2.IsWhole) (arg3 : Memref sig .tc .vmem S1x4096x64 .f32) (harg3 : arg3.IsWhole)
    (arg4 : Memref sig .tc .vmem S64x64 .f32) (harg4 : arg4.IsWhole) (arg5 : Memref sig .tc .vmem S64x64 .f32) (harg5 : arg5.IsWhole)
    (arg6 : Memref sig .tc .vmem S1x512x64 .f32) (harg6 : arg6.IsWhole)
    (x0 : Vec F S1x512x64 .f32) (x1 : Vec F S1x4096x64 .f32) (x2 x3 : Vec F S64x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out4 x0 x1 x2 x3)) -∗ K ⟨⟩))
      ⊢ wp frame (wpE (defs₀ (F := F)) Variants.none c none) E (cc0__attn_kernel i arg2 harg2 arg3 harg3 arg4 harg4 arg5 harg5 arg6 harg6) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The proof data -/

/-- The proof data on core `c`: the arrays as the region finds them; after the body at point `t` each input's buffer at
    its block and the output's at `out4` of the four blocks; the invariant the core's scoped buffers that are no
    staging buffer; the two readers of `inputs` hold a half share of it each, the matrices' readers the whole; nothing
    owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = out4 (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The arrays' shares at the region's entry -/

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- The four buffers behind the five windows, each whole at the full share, are the windows' arrays at the proof data's
    shares: `inputs`' full share is its left half, lent to the query-tile window, with its right half, lent to the slab
    window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e : (dats m 0 c).arrays ((dats m 0 c).arrAt · 0)
      = bigSep Finset.univ fun w : Fin 5 =>
          (((c.tc : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  rw [e, bigSep_W0, share0, share1, share2, share3, share4]
  have eL : (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_arg1) ↦{fullShare} V m c main_arg1)
          ∗ (((c.tc : Thread nD τ).loc main_arg2) ↦{fullShare} V m c main_arg2) ∗ (((c.tc : Thread nD τ).loc main_v0) ↦{fullShare} V m c main_v0)) := by
    unfold Pipeline.arrBufs
    exact bigSep_eq_bigSepL_of_eq [main_arg0, main_arg1, main_arg2, main_v0] (by decide) (by decide) _
  rw [eL]
  iintro ⟨H0, H1, H2, H3⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H2]; · iexact H2
  iexact H3

/-! ## The run and the frame -/

/-- The program up to the region is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- From any memory with zero counters every weakly fair execution of the program terminates, and every final state has
    each window's array at what the write-backs of all 32 points leave of its entry contents. -/
theorem run_main : θ_run defs (onTc (τ := τ) (main (F := F))) (s₀ m ρ)
    (fun r => ∀ (c : Dev nD) (w : Fin cfg0.W), r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none) (hsplit := hsplit m)
    (X := fun _ => iprop(emp)) (Y := fun _ => iprop(emp)) (Z := fun _ => iprop(emp))
    (hX := fun c => by rw [unscopedRest0_eq]; iintro -; isplitr <;> iempintro)
    (hin := fun c => (show iprop((emp : sProp 𝕄) ∗ Pipeline.scopedRest spec0 c) ⊢ Pipeline.scopedRest spec0 c from by
      iintro ⟨-, H⟩; iexact H))
    (hout := fun c => (show (Pipeline.scopedRest spec0 c : sProp 𝕄) ⊢ iprop(emp ∗ Pipeline.scopedRest spec0 c) from by
      iintro H; isplitr; · iempintro
      iexact H))
    (QY := fun _ _ => True)
    (hY := fun c s' => by
      iintro ⟨-, -, HSI⟩; imodintro
      isplitr; · ipureintro; trivial
      iexact HSI)
    (hQ := fun _ h c w => (h c).1 w)

/-- info: 'Cert.KernelIdeal.Hand.run_main' depends on axioms: [propext, Classical.choice, Quot.sound] -/
#guard_msgs in #print axioms run_main

/-- The three argument arrays end as they began: each is the array of an input window, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c 0).trans (((dats m 0 c).arrAt_in 0 rfl _).trans (A_eq m c 0)),
      (h c 2).trans (((dats m 0 c).arrAt_in 2 rfl _).trans (A_eq m c 2)),
      (h c 3).trans (((dats m 0 c).arrAt_in 3 rfl _).trans (A_eq m c 3))⟩) (run_main m ρ)

end Cert.KernelIdeal.Hand

end
-- ==== Proof.LibRows.lean ====
/-
  Row-wise reading of two-dimensional arrays at the ideal values, for any number of rows.

  A network that treats every row of its input alike (a chain of affine layers, pointwise
  functions, joins of feature vectors and reductions along the feature axis) is one function of a
  single row. This file says so layer by layer, at the level of whole arrays: an array is
  `ofRows f` when its row `i` is `f i`, and each layer sends `ofRows f` to `ofRows` of the
  layer's row function applied to `f i`. The statements hold for every row count, so the same
  lemma reads a block of rows and the whole array.

  * `lin w b v`: the affine map `j ↦ (∑ₖ v k · w (j,k)) + b j` (weights stored output-major).
  * `cat u v`: two feature vectors joined.
  * `rowMax`, `rowSum`: the fold of `max` from `⊥`, and the sum, over a row.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Idealize.ShloMosaic.Rows

open Idealize.ShloMosaic Idealize.ShloMosaic.ValueIdx

variable {N K M : ℕ}

/-! ## Arrays as families of rows -/

/-- The array whose row `i` is `f i`. -/
def ofRows (f : Fin N → Fin K → EReal) : FVec Ideal ⟨2, ![N, K]⟩ .f32 := fun i => f (i 0) (i 1)

/-- Row `i` of an array. -/
def rowOf (A : FVec Ideal ⟨2, ![N, K]⟩ .f32) (i : Fin N) : Fin K → EReal := fun k => A (ix2 i k)

theorem rowOf_ofRows (f : Fin N → Fin K → EReal) (i : Fin N) : rowOf (ofRows f) i = f i := rfl

theorem ofRows_apply (f : Fin N → Fin K → EReal) (i : Fin N) (k : Fin K) : ofRows f (ix2 i k) = f i k := rfl

theorem ofRows_rowOf (A : FVec Ideal ⟨2, ![N, K]⟩ .f32) : ofRows (rowOf A) = A :=
  funext fun i => (congrArg A (eq_ix2 i)).symm

/-- Two arrays are equal when they agree at every (row, column). -/
theorem ext_ix2 {A B : FVec Ideal ⟨2, ![N, K]⟩ .f32} (h : ∀ i k, A (ix2 i k) = B (ix2 i k)) : A = B :=
  funext fun j => by rw [eq_ix2 j]; exact h _ _

/-! ## A plain matrix product read at (row, column) -/

theorem plain_lhs_0 (i : (⟨2, ![N, M]⟩ : Shape).Idx) (q : (DotDims.plain N K M).contr.Idx) :
    ((DotDims.plain N K M).lhsIdx i q 0).val = (i 0).val := by
  unfold DotDims.lhsIdx
  rw [dif_neg (show ¬(0 : Fin (⟨2, ![N, K]⟩ : Shape).rank) ∈ (DotDims.plain N K M).lhsBatch from List.not_mem_nil),
    dif_pos (show (0 : Fin (⟨2, ![N, K]⟩ : Shape).rank) ∈ (DotDims.plain N K M).lhsNonContracting from List.mem_singleton.mpr rfl)]
  rfl

theorem plain_lhs_1 (i : (⟨2, ![N, M]⟩ : Shape).Idx) (q : (DotDims.plain N K M).contr.Idx) :
    ((DotDims.plain N K M).lhsIdx i q 1).val = (q ⟨0, Nat.one_pos⟩).val :=
  (DotDims.plain N K M).lhsIdx_val_of_single rfl i q

theorem plain_rhs_0 (i : (⟨2, ![N, M]⟩ : Shape).Idx) (q : (DotDims.plain N K M).contr.Idx) :
    ((DotDims.plain N K M).rhsIdx i q 0).val = (q ⟨0, Nat.one_pos⟩).val :=
  (DotDims.plain N K M).rhsIdx_val_of_single rfl i q

theorem plain_rhs_1 (i : (⟨2, ![N, M]⟩ : Shape).Idx) (q : (DotDims.plain N K M).contr.Idx) :
    ((DotDims.plain N K M).rhsIdx i q 1).val = (i 1).val := by
  unfold DotDims.rhsIdx
  rw [dif_neg (show ¬(1 : Fin (⟨2, ![K, M]⟩ : Shape).rank) ∈ (DotDims.plain N K M).rhsBatch from List.not_mem_nil),
    dif_pos (show (1 : Fin (⟨2, ![K, M]⟩ : Shape).rank) ∈ (DotDims.plain N K M).rhsNonContracting from List.mem_singleton.mpr rfl)]
  rfl

/-- The sum over the one contracted axis, re-indexed by its coordinate. -/
theorem plain_sum (l : FVec Ideal ⟨2, ![N, K]⟩ .f32) (r : FVec Ideal ⟨2, ![K, M]⟩ .f32) (i : Fin N) (j : Fin M) :
    (∑ q : (DotDims.plain N K M).contr.Idx, l ((DotDims.plain N K M).lhsIdx (ix2 i j) q) * r ((DotDims.plain N K M).rhsIdx (ix2 i j) q))
      = ∑ k : Fin K, l (ix2 i k) * r (ix2 k j) := by
  rw [← Equiv.sum_comp (contrEquiv1 (DotDims.plain N K M) K rfl rfl).symm]
  refine Finset.sum_congr rfl fun k _ => ?_
  have hk := contrEquiv1_symm_val (DotDims.plain N K M) K rfl rfl k
  have el : (DotDims.plain N K M).lhsIdx (ix2 i j) ((contrEquiv1 (DotDims.plain N K M) K rfl rfl).symm k) = ix2 i k :=
    funext fun a => Fin.ext (by
      match a with
      | ⟨0, _⟩ => exact plain_lhs_0 _ _
      | ⟨1, _⟩ => exact (plain_lhs_1 _ _).trans hk)
  have er : (DotDims.plain N K M).rhsIdx (ix2 i j) ((contrEquiv1 (DotDims.plain N K M) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into a zero accumulator, at (i, j): the sum over k of l (i,k) · r (k,j). -/
theorem matmul_plain_apply (l : FVec Ideal ⟨2, ![N, K]⟩ .f32) (r : FVec Ideal ⟨2, ![K, M]⟩ .f32) (i : Fin N) (j : Fin M) :
    matmul (DotDims.plain N K M) none l r (constant ⟨2, ![N, M]⟩ .f32 0x00000000#32) (ix2 i j)
      = ∑ k : Fin K, l (ix2 i k) * r (ix2 k j) := by
  show FloatOps.matmul (DotDims.plain N K M) none l r (constant ⟨2, ![N, M]⟩ .f32 0x00000000#32) (ix2 i j) = _
  rw [Ideal.matmul_constant_zero_apply]
  exact plain_sum l r i j

/-- The host's product, at (i, j): the same sum. -/
theorem dotGeneral_plain_apply (l : FVec Ideal ⟨2, ![N, K]⟩ .f32) (r : FVec Ideal ⟨2, ![K, M]⟩ .f32) (i : Fin N) (j : Fin M) :
    Host.dotGeneral (DotDims.plain N K M) none l r (ix2 i j) = ∑ k : Fin K, l (ix2 i k) * r (ix2 k j) := by
  show FloatOps.dotGeneral (DotDims.plain N K M) none .single l r (ix2 i j) = _
  rw [Ideal.dotGeneral_apply]
  exact plain_sum l r i j

/-! ## An affine layer -/

/-- One affine layer on a row `v`: output feature `j` is `(∑ₖ v k · w (j,k)) + b j`. -/
def lin (w : FVec Ideal ⟨2, ![M, K]⟩ .f32) (b : FVec Ideal ⟨1, ![M]⟩ .f32) (v : Fin K → EReal) : Fin M → EReal :=
  fun j => (∑ k : Fin K, v k * w (ix2 j k)) + b (ix1 j)

/-- The kernel's spelling of an affine layer: product with the transposed weights into a zero accumulator, plus the
    bias laid along every row. -/
theorem klin_eq (h : FVec Ideal ⟨2, ![N, K]⟩ .f32) (w : FVec Ideal ⟨2, ![M, K]⟩ .f32) (b : FVec Ideal ⟨1, ![M]⟩ .f32)
    (tr : (⟨2, ![M, K]⟩ : Shape).Transposes [1, 0] ⟨2, ![K, M]⟩) (sc : (⟨1, ![M]⟩ : Shape).ShapeCasts ⟨2, ![1, M]⟩)
    (bc : (⟨2, ![1, M]⟩ : Shape).Broadcasts ⟨2, ![N, M]⟩) :
    addf (matmul (DotDims.plain N K M) none h (transpose ⟨2, ![K, M]⟩ [1, 0] w tr) (constant ⟨2, ![N, M]⟩ .f32 0x00000000#32))
        (broadcastTo ⟨2, ![N, M]⟩ (shapeCast ⟨2, ![1, M]⟩ b sc) bc)
      = ofRows fun i => lin w b (rowOf h i) := by
  refine ext_ix2 fun i j => ?_
  rw [addf_apply, matmul_plain_apply, broadcastTo_1b_ab_apply, shapeCast_a_1a_apply, ofRows_apply]
  unfold lin rowOf
  exact congrArg (· + b (ix1 j)) (Finset.sum_congr rfl fun k _ => by rw [transpose_ix2_apply])

/-- The host's spelling: `dot_general` with the transposed weights, plus the bias broadcast in two steps. -/
theorem hlin_eq (h : FVec Ideal ⟨2, ![N, K]⟩ .f32) (w : FVec Ideal ⟨2, ![M, K]⟩ .f32) (b : FVec Ideal ⟨1, ![M]⟩ .f32)
    (tr : (⟨2, ![M, K]⟩ : Shape).Transposes [1, 0] ⟨2, ![K, M]⟩)
    (b1 : (⟨1, ![M]⟩ : Shape).BroadcastsInDim ⟨2, ![1, M]⟩ ![1])
    (b2 : (⟨2, ![1, M]⟩ : Shape).BroadcastsInDim ⟨2, ![N, M]⟩ ![0, 1]) :
    addf (Host.dotGeneral (DotDims.plain N K M) none h (transpose ⟨2, ![K, M]⟩ [1, 0] w tr))
        (broadcastInDim ⟨2, ![N, M]⟩ ![0, 1] b2 (broadcastInDim ⟨2, ![1, M]⟩ ![1] b1 b))
      = ofRows fun i => lin w b (rowOf h i) := by
  refine ext_ix2 fun i j => ?_
  rw [addf_apply, dotGeneral_plain_apply, Idealize.ShloMosaic.broadcastInDim_oneRow_apply, ofRows_apply]
  have e : broadcastInDim ⟨2, ![1, M]⟩ ![1] b1 b (ix2 (0 : Fin 1) j) = b (ix1 j) :=
    broadcastInDim_apply ![1] b1 b (ix2 (0 : Fin 1) j) (ix1 j) fun a => by
      match a with
      | ⟨0, _⟩ =>
        show j.val = if M = 1 then 0 else j.val
        split
        · have := j.isLt; omega
        · rfl
  rw [e]
  unfold lin rowOf
  exact congrArg (· + b (ix1 j)) (Finset.sum_congr rfl fun k _ => by rw [transpose_ix2_apply])

/-! ## Two feature vectors joined -/

/-- `u` followed by `v`. -/
def cat {A B C : ℕ} (hC : A + B = C) (u : Fin A → EReal) (v : Fin B → EReal) : Fin C → EReal :=
  fun j => if h : j.val < A then u ⟨j.val, h⟩ else v ⟨j.val - A, by have := j.isLt; omega⟩

/-- Joining two arrays along the feature axis joins their rows. -/
theorem cat_eq {A B C : ℕ} (hC : A + B = C) (x₁ : FVec Ideal ⟨2, ![N, A]⟩ .f32) (x₂ : FVec Ideal ⟨2, ![N, B]⟩ .f32)
    (hc : Shape.Concatenates [⟨2, ![N, A]⟩, ⟨2, ![N, B]⟩] ⟨2, ![N, C]⟩ 1) :
    concatenate ⟨2, ![N, C]⟩ 1 [⟨⟨2, ![N, A]⟩, x₁⟩, ⟨⟨2, ![N, B]⟩, x₂⟩] hc
      = ofRows fun i => cat hC (rowOf x₁ i) (rowOf x₂ i) := by
  refine ext_ix2 fun i j => ?_
  rw [ofRows_apply]
  unfold cat rowOf
  by_cases h : j.val < A
  · rw [dif_pos h]
    exact concatenate_pair_apply_left 1 x₁ x₂ hc (ix2 i j) rfl (ix2 i ⟨j.val, h⟩) fun b => by
      match b with
      | ⟨0, _⟩ => rfl
      | ⟨1, _⟩ => rfl
  · rw [dif_neg h]
    have hj := j.isLt
    refine concatenate_pair_apply_right 1 x₁ x₂ hc (ix2 i j) rfl rfl (ix2 i ⟨j.val - A, by omega⟩) (fun b hb => ?_) ?_
    · match b with
      | ⟨0, _⟩ => rfl
      | ⟨1, _⟩ => exact absurd rfl hb
    · show j.val - A + A = j.val
      omega

/-! ## Pointwise operations, row by row -/

section Pointwise
variable (x y : FVec Ideal ⟨2, ![N, K]⟩ .f32)

theorem sin_rows : sin x = ofRows fun i k => Ideal.sin (rowOf x i k) := ext_ix2 fun _ _ => rfl
theorem cos_rows : cos x = ofRows fun i k => Ideal.cos (rowOf x i k) := ext_ix2 fun _ _ => rfl
theorem exp_rows : exp x = ofRows fun i k => Ideal.exp (rowOf x i k) := ext_ix2 fun _ _ => rfl
theorem hsin_rows : Host.sin x = ofRows fun i k => Ideal.sin (rowOf x i k) := ext_ix2 fun _ _ => rfl
theorem hcos_rows : Host.cos x = ofRows fun i k => Ideal.cos (rowOf x i k) := ext_ix2 fun _ _ => rfl
theorem hexp_rows : Host.exp x = ofRows fun i k => Ideal.exp (rowOf x i k) := ext_ix2 fun _ _ => rfl
theorem addf_rows : addf x y = ofRows fun i k => rowOf x i k + rowOf y i k := ext_ix2 fun _ _ => rfl
theorem subf_rows : subf x y = ofRows fun i k => rowOf x i k - rowOf y i k := ext_ix2 fun _ _ => rfl
theorem mulf_rows : mulf x y = ofRows fun i k => rowOf x i k * rowOf y i k := ext_ix2 fun _ _ => rfl
theorem maximumf_rows : maximumf x y = ofRows fun i k => max (rowOf x i k) (rowOf y i k) := ext_ix2 fun _ _ => rfl
theorem divf_rows : divf x y = ofRows fun i k => Ideal.div (rowOf x i k) (rowOf y i k) := ext_ix2 fun _ _ => rfl
theorem hdivf_rows : Host.divf x y = ofRows fun i k => Ideal.div (rowOf x i k) (rowOf y i k) := ext_ix2 fun _ _ => rfl

end Pointwise

/-- A row of a kernel's scalar splat. -/
theorem rowOf_broadcast (b : BitVec 32) (i : Fin N) :
    rowOf (broadcast ⟨2, ![N, K]⟩ (Scalar.ofBits (F := Ideal) .f32 b)) i = fun _ => Ideal.ofBits .f32 b := rfl

/-- A row of the host's scalar constant broadcast to an array. -/
theorem rowOf_broadcastInDim_const (b : BitVec 32) (hb : (⟨0, ![]⟩ : Shape).BroadcastsInDim ⟨2, ![N, K]⟩ ![]) (i : Fin N) :
    rowOf (broadcastInDim ⟨2, ![N, K]⟩ ![] hb (constant (F := Ideal) ⟨0, ![]⟩ .f32 b)) i = fun _ => Ideal.ofBits .f32 b :=
  funext fun k => broadcastInDim_scalar_apply hb _ (ix2 i k)

/-! ## One value per row -/

/-- The one-axis array whose entry `i` is `f i`. -/
def ofVals (f : Fin N → EReal) : FVec Ideal ⟨1, ![N]⟩ .f32 := fun i => f (i 0)

/-- Entry `i` of a one-axis array. -/
def valOf (c : FVec Ideal ⟨1, ![N]⟩ .f32) (i : Fin N) : EReal := c (ix1 i)

theorem valOf_ofVals (f : Fin N → EReal) (i : Fin N) : valOf (ofVals f) i = f i := rfl

theorem ext_ix1 {a b : FVec Ideal ⟨1, ![N]⟩ .f32} (h : ∀ i, a (ix1 i) = b (ix1 i)) : a = b :=
  funext fun j => by rw [eq_ix1 j]; exact h _

theorem maximumf_vals (a b : FVec Ideal ⟨1, ![N]⟩ .f32) : maximumf a b = ofVals fun i => max (valOf a i) (valOf b i) :=
  ext_ix1 fun _ => rfl

theorem valOf_broadcast (b : BitVec 32) (i : Fin N) :
    valOf (broadcast ⟨1, ![N]⟩ (Scalar.ofBits (F := Ideal) .f32 b)) i = Ideal.ofBits .f32 b := rfl

theorem valOf_broadcastInDim_const (b : BitVec 32) (hb : (⟨0, ![]⟩ : Shape).BroadcastsInDim ⟨1, ![N]⟩ ![]) (i : Fin N) :
    valOf (broadcastInDim ⟨1, ![N]⟩ ![] hb (constant (F := Ideal) ⟨0, ![]⟩ .f32 b)) i = Ideal.ofBits .f32 b :=
  broadcastInDim_scalar_apply hb _ (ix1 i)

/-- The index a reduction over the feature axis reads: row `i`, feature `k`. -/
theorem lift_ix1 (h : (⟨2, ![N, M]⟩ : Shape).Reduces [1] ⟨1, ![N]⟩) (i : Fin N) (k : Fin M) :
    h.lift (ix1 i) k = ix2 i k :=
  funext fun a => Fin.ext (by
    match a with
    | ⟨0, _⟩ => rfl
    | ⟨1, _⟩ => rfl)

/-- The largest entry of a row, folded from the word `0xFF800000`'s value. -/
def rowMax (v : Fin M → EReal) : EReal := (Finset.univ : Finset (Fin M)).fold max (Ideal.ofBits .f32 0xFF800000#32) v

/-- A kernel's maximum along the feature axis. -/
theorem kmax_eq (x : FVec Ideal ⟨2, ![N, M]⟩ .f32) (h : (⟨2, ![N, M]⟩ : Shape).Reduces [1] ⟨1, ![N]⟩)
    (hφ : FKind.Formats .f32) (hacc : (0xFF800000#32 : BitVec 32) = FKind.maximumf.neutral .f32 hφ) :
    multiReduction .maximumf [1] ⟨1, ![N]⟩ x 0xFF800000#32 h hφ hacc = ofVals fun i => rowMax (rowOf x i) := by
  refine ext_ix1 fun i => ?_
  rw [Ideal.multiReduction_maximumf_single]
  show _ = rowMax (rowOf x i)
  unfold rowMax
  congr 1
  funext k
  exact congrArg x (lift_ix1 h i k)

/-- The host's maximum along the feature axis, from the same initial word. -/
theorem hmax_eq (x : FVec Ideal ⟨2, ![N, M]⟩ .f32) (h' : (⟨2, ![N, M]⟩ : Shape).ReducesTo [1] ⟨1, ![N]⟩)
    (h : (⟨2, ![N, M]⟩ : Shape).Reduces [1] ⟨1, ![N]⟩) (hu : 0 < (⟨0, ![]⟩ : Shape).numel) :
    Host.reduce FloatOps.maximumf x (constant (F := Ideal) ⟨0, ![]⟩ .f32 0xFF800000#32) h' hu
      = ofVals fun i => rowMax (rowOf x i) := by
  refine ext_ix1 fun i => ?_
  rw [Host.reduce_eq_fold_single FloatOps.maximumf x _ h' h hu]
  show _ = rowMax (rowOf x i)
  unfold rowMax
  congr 1
  funext k
  exact congrArg x (lift_ix1 h i k)

/-- A kernel's sum along the feature axis. -/
theorem ksum_eq (x : FVec Ideal ⟨2, ![N, M]⟩ .f32) (h : (⟨2, ![N, M]⟩ : Shape).Reduces [1] ⟨1, ![N]⟩)
    (hφ : FKind.Formats .f32) (hacc : (0x00000000#32 : BitVec 32) = FKind.add.neutral .f32 hφ) :
    multiReduction .add [1] ⟨1, ![N]⟩ x 0x00000000#32 h hφ hacc = ofVals fun i => ∑ k : Fin M, rowOf x i k := by
  refine ext_ix1 fun i => ?_
  rw [Ideal.multiReduction_add_single]
  exact Finset.sum_congr rfl fun k _ => congrArg x (lift_ix1 h i k)

/-- The host's sum along the feature axis from a zero initial value. -/
theorem hsum_eq (x : FVec Ideal ⟨2, ![N, M]⟩ .f32) (h' : (⟨2, ![N, M]⟩ : Shape).ReducesTo [1] ⟨1, ![N]⟩)
    (h : (⟨2, ![N, M]⟩ : Shape).Reduces [1] ⟨1, ![N]⟩) (hu : 0 < (⟨0, ![]⟩ : Shape).numel) :
    Host.reduceAdd x (constant (F := Ideal) ⟨0, ![]⟩ .f32 0x00000000#32) h' hu
      = ofVals fun i => ∑ k : Fin M, rowOf x i k := by
  refine ext_ix1 fun i => ?_
  rw [hostReduceAdd_apply, Ideal.hostReduceAdd_single h' h]
  show Ideal.ofBits .f32 0x00000000#32 + _ = _
  rw [Ideal.ofBits_zero_f32, zero_add]
  exact Finset.sum_congr rfl fun k _ => congrArg x (lift_ix1 h i k)

/-! ## One value per row laid along the row -/

/-- The kernel's way: a unit feature axis added, then broadcast along it. -/
theorem kcol_eq (c : FVec Ideal ⟨1, ![N]⟩ .f32) (sc : (⟨1, ![N]⟩ : Shape).ShapeCasts ⟨2, ![N, 1]⟩)
    (bc : (⟨2, ![N, 1]⟩ : Shape).Broadcasts ⟨2, ![N, M]⟩) :
    broadcastTo ⟨2, ![N, M]⟩ (shapeCast ⟨2, ![N, 1]⟩ c sc) bc = ofRows fun i _ => valOf c i := by
  refine ext_ix2 fun i j => ?_
  have e1 := broadcastTo_apply (shapeCast ⟨2, ![N, 1]⟩ c sc) bc (ix2 i j) (ix2 i (0 : Fin 1)) (by
    intro a
    match a with
    | ⟨0, _⟩ =>
      show i.val = if N = 1 then 0 else i.val
      split
      · have := i.isLt; omega
      · rfl
    | ⟨1, _⟩ => rfl)
  have e2 := shapeCast_apply c sc (ix2 i (0 : Fin 1)) (ix1 i) (by
    rw [Shape.rowMajor_val_two, Shape.rowMajor_val_one]; show i.val = i.val * 1 + 0; omega)
  exact e1.trans e2

/-- A unit feature axis added to a one-axis array. -/
theorem kcol1_eq (c : FVec Ideal ⟨1, ![N]⟩ .f32) (sc : (⟨1, ![N]⟩ : Shape).ShapeCasts ⟨2, ![N, 1]⟩) :
    shapeCast ⟨2, ![N, 1]⟩ c sc = ofRows fun i _ => valOf c i := by
  refine ext_ix2 fun i j => ?_
  exact shapeCast_apply c sc (ix2 i j) (ix1 i) (by
    rw [Shape.rowMajor_val_two, Shape.rowMajor_val_one]; show i.val = i.val * 1 + j.val; have := j.isLt; omega)

/-- The host's way: two `broadcast_in_dim`s. -/
theorem hcol_eq (c : FVec Ideal ⟨1, ![N]⟩ .f32) (b1 : (⟨1, ![N]⟩ : Shape).BroadcastsInDim ⟨2, ![N, 1]⟩ ![0])
    (b2 : (⟨2, ![N, 1]⟩ : Shape).BroadcastsInDim ⟨2, ![N, M]⟩ ![0, 1]) :
    broadcastInDim ⟨2, ![N, M]⟩ ![0, 1] b2 (broadcastInDim ⟨2, ![N, 1]⟩ ![0] b1 c) = ofRows fun i _ => valOf c i := by
  refine ext_ix2 fun i j => ?_
  have e1 := broadcastInDim_apply ![0, 1] b2 (broadcastInDim ⟨2, ![N, 1]⟩ ![0] b1 c) (ix2 i j) (ix2 i (0 : Fin 1)) (by
    intro a
    match a with
    | ⟨0, _⟩ =>
      show i.val = if N = 1 then 0 else i.val
      split
      · have := i.isLt; omega
      · rfl
    | ⟨1, _⟩ => rfl)
  have e2 := broadcastInDim_apply ![0] b1 c (ix2 i (0 : Fin 1)) (ix1 i) (by
    intro a
    match a with
    | ⟨0, _⟩ =>
      show i.val = if N = 1 then 0 else i.val
      split
      · have := i.isLt; omega
      · rfl)
  exact e1.trans e2

end Idealize.ShloMosaic.Rows

end
-- ==== Proof.Spec.lean ====
/-
  Single-head attention whose values are the raw inputs, one query row at a time.

  For a batch slab `X` (S rows of D features), projection matrices `W` (queries) and `E` (keys),
  and a query row `xq`:
    logits    s j = ∑ₑ (xq·W)ₑ · (X j·E)ₑ, scaled by 1/√D;
    weights   p j = exp (s j − max s);
    result    d ↦ ∑ⱼ p j · X j d, divided by ∑ⱼ p j.
  Two spellings are stated. `attnRow` scales the projected query by the float word of 1/8 before the
  logits are formed, and multiplies the weighted sum of value rows by the reciprocal of the weights'
  total. `attnRowR` scales the finished logits by 1 / √64, and divides every weight by the total before
  the value rows are summed. `G` is the first spelling laid over a whole array of slabs; `GR` the second.
-/
import proofs.«406537_j65481071409934_3_alg».proof.Proof.LibRows

noncomputable section

namespace Cert.Attn

open Idealize.ShloMosaic Idealize.ShloMosaic.ValueIdx Idealize.ShloMosaic.Rows

/-- The float word of 1/8. -/
abbrev wScale : EReal := Ideal.ofBits .f32 0x3E000000#32
/-- The float word of 1. -/
abbrev wOne : EReal := Ideal.ofBits .f32 0x3F800000#32
/-- The float word of 64. -/
abbrev wDim : EReal := Ideal.ofBits .f32 0x42800000#32

variable {S D : ℕ}

/-- A row times a D × D matrix: feature `e` of the product is ∑_d v d · W (d, e). -/
def proj (W : (⟨2, ![D, D]⟩ : Shape).Idx → EReal) (v : Fin D → EReal) : Fin D → EReal :=
  fun e => ∑ d : Fin D, v d * W (ix2 d e)

/-- Logits of one query row against every key row, the projected query scaled first. -/
def logits (W E : (⟨2, ![D, D]⟩ : Shape).Idx → EReal) (xq : Fin D → EReal) (X : Fin S → Fin D → EReal) : Fin S → EReal :=
  fun j => ∑ e : Fin D, (proj W xq e * wScale) * proj E (X j) e

/-- Logits with the scale 1 / √64 applied to the finished inner product. -/
def logitsR (W E : (⟨2, ![D, D]⟩ : Shape).Idx → EReal) (xq : Fin D → EReal) (X : Fin S → Fin D → EReal) : Fin S → EReal :=
  fun j => (∑ e : Fin D, proj W xq e * proj E (X j) e) * Ideal.div wOne (Ideal.sqrt wDim)

/-- The unnormalised weights of a row of logits: exp of the logits shifted by their maximum. -/
def weights (s : Fin S → EReal) : Fin S → EReal := fun j => Ideal.exp (s j - rowMax s)

/-- One output row: the weighted sum of the value rows times the reciprocal of the weights' total. -/
def attnRow (W E : (⟨2, ![D, D]⟩ : Shape).Idx → EReal) (xq : Fin D → EReal) (X : Fin S → Fin D → EReal) : Fin D → EReal :=
  fun d => (∑ j : Fin S, weights (logits W E xq X) j * X j d) * Ideal.div wOne (∑ j : Fin S, weights (logits W E xq X) j)

/-- One output row, every weight divided by the total before the value rows are summed. -/
def attnRowR (W E : (⟨2, ![D, D]⟩ : Shape).Idx → EReal) (xq : Fin D → EReal) (X : Fin S → Fin D → EReal) : Fin D → EReal :=
  fun d => ∑ j : Fin S, Ideal.div (weights (logitsR W E xq X) j) (∑ j' : Fin S, weights (logitsR W E xq X) j') * X j d

/-- Slab `b` of a three-axis array as a family of rows. -/
def slab {B : ℕ} (x : (⟨3, ![B, S, D]⟩ : Shape).Idx → EReal) (b : Fin B) : Fin S → Fin D → EReal := fun j d => x (ix3 b j d)

/-- The whole result: entry (b, s, d) is feature `d` of the output row of query `s` within slab `b`. -/
def G {B : ℕ} (x : (⟨3, ![B, S, D]⟩ : Shape).Idx → EReal) (W E : (⟨2, ![D, D]⟩ : Shape).Idx → EReal) :
    (⟨3, ![B, S, D]⟩ : Shape).Idx → EReal :=
  fun i => attnRow W E (slab x (i 0) (i 1)) (slab x (i 0)) (i 2)

/-- The same in the second spelling. -/
def GR {B : ℕ} (x : (⟨3, ![B, S, D]⟩ : Shape).Idx → EReal) (W E : (⟨2, ![D, D]⟩ : Shape).Idx → EReal) :
    (⟨3, ![B, S, D]⟩ : Shape).Idx → EReal :=
  fun i => attnRowR W E (slab x (i 0) (i 1)) (slab x (i 0)) (i 2)

theorem G_apply {B : ℕ} (x : (⟨3, ![B, S, D]⟩ : Shape).Idx → EReal) (W E : (⟨2, ![D, D]⟩ : Shape).Idx → EReal)
    (b : Fin B) (s : Fin S) (d : Fin D) : G x W E (ix3 b s d) = attnRow W E (slab x b s) (slab x b) d := rfl

theorem GR_apply {B : ℕ} (x : (⟨3, ![B, S, D]⟩ : Shape).Idx → EReal) (W E : (⟨2, ![D, D]⟩ : Shape).Idx → EReal)
    (b : Fin B) (s : Fin S) (d : Fin D) : GR x W E (ix3 b s d) = attnRowR W E (slab x b s) (slab x b) d := rfl

/-- Every entry is a real number. -/
def IsReal {ι : Type} (f : ι → EReal) : Prop := ∀ i, ∃ r : ℝ, f i = (r : EReal)

end Cert.Attn

end
-- ==== Proof.LibDotT.lean ====
/-
  A product with output-major weights,  a · wᵀ,  read at (row, column), at the ideal values and for
  any sizes.

  The weights `w` are stored M × K (one row per OUTPUT feature); the operand `a` is N × K. Two spellings
  of the same product:
  * the kernel's: one matrix product contracting axis 1 of BOTH operands (the right operand on its
    last axis) into a zero accumulator;
  * the host's: the weights transposed to K × M first, then a plain product contracting the left
    operand's axis 1 with the transposed weights' axis 0.
  At (i, j) each is the one sum  ∑ₖ a (i, k) · w (j, k).  The statements hold for every row count, so
  the same lemma reads a block of rows and the whole array.
-/
import proofs.«406537_j65481071409934_3_alg».proof.Proof.LibRows
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.Rows

open Idealize.ShloMosaic Idealize.ShloMosaic.ValueIdx

variable {N K M : ℕ}

/-! ## The operand indices of a product whose right operand is contracted on its last axis -/

/-- The left operand's row is the result's row. -/
theorem trhs_lhs_0 (i : (⟨2, ![N, M]⟩ : Shape).Idx) (q : (DotDims.transposedRhs N K M).contr.Idx) :
    ((DotDims.transposedRhs N K M).lhsIdx i q 0).val = (i 0).val := by
  unfold DotDims.lhsIdx
  rw [dif_neg (show ¬(0 : Fin (⟨2, ![N, K]⟩ : Shape).rank) ∈ (DotDims.transposedRhs N K M).lhsBatch from List.not_mem_nil),
    dif_pos (show (0 : Fin (⟨2, ![N, K]⟩ : Shape).rank) ∈ (DotDims.transposedRhs N K M).lhsNonContracting from List.mem_singleton.mpr rfl)]
  rfl

/-- The left operand's column is the contraction coordinate. -/
theorem trhs_lhs_1 (i : (⟨2, ![N, M]⟩ : Shape).Idx) (q : (DotDims.transposedRhs N K M).contr.Idx) :
    ((DotDims.transposedRhs N K M).lhsIdx i q 1).val = (q ⟨0, Nat.one_pos⟩).val :=
  (DotDims.transposedRhs N K M).lhsIdx_val_of_single rfl i q

/-- The right operand's row is the result's column. -/
theorem trhs_rhs_0 (i : (⟨2, ![N, M]⟩ : Shape).Idx) (q : (DotDims.transposedRhs N K M).contr.Idx) :
    ((DotDims.transposedRhs N K M).rhsIdx i q 0).val = (i 1).val := by
  unfold DotDims.rhsIdx
  rw [dif_neg (show ¬(0 : Fin (⟨2, ![M, K]⟩ : Shape).rank) ∈ (DotDims.transposedRhs N K M).rhsBatch from List.not_mem_nil),
    dif_pos (show (0 : Fin (⟨2, ![M, K]⟩ : Shape).rank) ∈ (DotDims.transposedRhs N K M).rhsNonContracting from List.mem_singleton.mpr rfl)]
  rfl

/-- The right operand's column is the contraction coordinate. -/
theorem trhs_rhs_1 (i : (⟨2, ![N, M]⟩ : Shape).Idx) (q : (DotDims.transposedRhs N K M).contr.Idx) :
    ((DotDims.transposedRhs N K M).rhsIdx i q 1).val = (q ⟨0, Nat.one_pos⟩).val :=
  (DotDims.transposedRhs N K M).rhsIdx_val_of_single rfl i q

/-- The sum over the one contracted axis, re-indexed by its coordinate: the right operand is read at (column, k). -/
theorem trhs_sum {φ₁ φ₂ : FTy} (l : FVec Ideal ⟨2, ![N, K]⟩ φ₁) (r : FVec Ideal ⟨2, ![M, K]⟩ φ₂) (i : Fin N) (j : Fin M) :
    (∑ q : (DotDims.transposedRhs N K M).contr.Idx,
        l ((DotDims.transposedRhs N K M).lhsIdx (ix2 i j) q) * r ((DotDims.transposedRhs N K M).rhsIdx (ix2 i j) q))
      = ∑ k : Fin K, l (ix2 i k) * r (ix2 j k) := by
  rw [← Equiv.sum_comp (contrEquiv1 (DotDims.transposedRhs N K M) K rfl rfl).symm]
  refine Finset.sum_congr rfl fun k _ => ?_
  have hk := contrEquiv1_symm_val (DotDims.transposedRhs N K M) K rfl rfl k
  have el : (DotDims.transposedRhs N K M).lhsIdx (ix2 i j) ((contrEquiv1 (DotDims.transposedRhs N K M) K rfl rfl).symm k) = ix2 i k :=
    funext fun a => Fin.ext (by
      match a with
      | ⟨0, _⟩ => exact trhs_lhs_0 _ _
      | ⟨1, _⟩ => exact (trhs_lhs_1 _ _).trans hk)
  have er : (DotDims.transposedRhs N K M).rhsIdx (ix2 i j) ((contrEquiv1 (DotDims.transposedRhs N K M) K rfl rfl).symm k) = ix2 j k :=
    funext fun a => Fin.ext (by
      match a with
      | ⟨0, _⟩ => exact trhs_rhs_0 _ _
      | ⟨1, _⟩ => exact (trhs_rhs_1 _ _).trans hk)
  rw [el, er]

/-! ## The two spellings at (row, column) -/

/-- The kernel's spelling: a product contracting axis 1 of both operands into a zero accumulator, at (i, j), is
    ∑ₖ l (i,k) · r (j,k) — whatever the operands' float formats. -/
theorem matmul_trhs_apply {φ₁ φ₂ : FTy} (l : FVec Ideal ⟨2, ![N, K]⟩ φ₁) (r : FVec Ideal ⟨2, ![M, K]⟩ φ₂) (i : Fin N) (j : Fin M) :
    matmul (DotDims.transposedRhs N K M) none l r (constant ⟨2, ![N, M]⟩ .f32 0x00000000#32) (ix2 i j)
      = ∑ k : Fin K, l (ix2 i k) * r (ix2 j k) := by
  show FloatOps.matmul (DotDims.transposedRhs N K M) none l r (constant ⟨2, ![N, M]⟩ .f32 0x00000000#32) (ix2 i j) = _
  rw [Ideal.matmul_constant_zero_apply]
  exact trhs_sum l r i j

/-- The host's spelling: the weights transposed, then the plain product, at (i, j): the same sum. -/
theorem dotGeneral_transpose_apply (l : FVec Ideal ⟨2, ![N, K]⟩ .f32) (w : FVec Ideal ⟨2, ![M, K]⟩ .f32)
    (tr : (⟨2, ![M, K]⟩ : Shape).Transposes [1, 0] ⟨2, ![K, M]⟩) (i : Fin N) (j : Fin M) :
    Host.dotGeneral (DotDims.plain N K M) none l (transpose ⟨2, ![K, M]⟩ [1, 0] w tr) (ix2 i j)
      = ∑ k : Fin K, l (ix2 i k) * w (ix2 j k) := by
  rw [dotGeneral_plain_apply]
  exact Finset.sum_congr rfl fun k _ => by rw [transpose_ix2_apply]

end Idealize.ShloMosaic.Rows

end
-- ==== Proof.LibCosineSoftmax.lean ====
/-
  Cosine similarity of every row of an array against a table of class prototypes, then a softmax
  over the classes: row by row, at the ideal values, for any sizes.

  * `unitRow b v`: the vector `v` divided by its Euclidean length, the length clamped below by the
    value of the word `b`:  v d / max (√(∑ₑ v e · v e)) b.
  * `dots w u`: the inner products of `u` with every row of the table `w`:  k ↦ ∑_d u d · w (k,d).
  * `softmaxRow s`: k ↦ exp (s k − max s) / ∑ⱼ exp (s j − max s), the maximum folded from −∞.

  Each is read off the kernel's spelling (lane reductions, a unit axis added and broadcast, a product
  contracting the last axis of both operands into a zero accumulator) and off the host's
  (`reduce`, two `broadcast_in_dim`s, `dot_general`), as arrays of rows. The statements hold for
  every row count, so one lemma reads a block of rows and the whole array.
-/
import proofs.«406537_j65481071409934_3_alg».proof.Proof.LibRows
import proofs.«406537_j65481071409934_3_alg».proof.Proof.LibDotT
import Mathlib.Data.Finset.Fold

noncomputable section

namespace Idealize.ShloMosaic.Rows

open Idealize.ShloMosaic Idealize.ShloMosaic.ValueIdx

variable {N D K M : ℕ}

/-! ## More layers read row by row -/

theorem sqrt_rows (x : FVec Ideal ⟨2, ![N, K]⟩ .f32) : sqrt x = ofRows fun i k => Ideal.sqrt (rowOf x i k) :=
  ext_ix2 fun _ _ => rfl

theorem hsqrt_rows (x : FVec Ideal ⟨2, ![N, K]⟩ .f32) : Host.sqrt x = ofRows fun i k => Ideal.sqrt (rowOf x i k) :=
  ext_ix2 fun _ _ => rfl

/-- A column (one entry per row) laid along every row, the kernel's way. -/
theorem kspread_eq (a : FVec Ideal ⟨2, ![N, 1]⟩ .f32) (bc : (⟨2, ![N, 1]⟩ : Shape).Broadcasts ⟨2, ![N, M]⟩) :
    broadcastTo ⟨2, ![N, M]⟩ a bc = ofRows fun i _ => a (ix2 i (0 : Fin 1)) := by
  refine ext_ix2 fun i j => ?_
  exact broadcastTo_apply a bc (ix2 i j) (ix2 i (0 : Fin 1)) (by
    intro b
    match b with
    | ⟨0, _⟩ =>
      show i.val = if N = 1 then 0 else i.val
      split
      · have := i.isLt; omega
      · rfl
    | ⟨1, _⟩ => rfl)

/-- A column laid along every row, the host's way. -/
theorem hspread_eq (a : FVec Ideal ⟨2, ![N, 1]⟩ .f32) (b2 : (⟨2, ![N, 1]⟩ : Shape).BroadcastsInDim ⟨2, ![N, M]⟩ ![0, 1]) :
    broadcastInDim ⟨2, ![N, M]⟩ ![0, 1] b2 a = ofRows fun i _ => a (ix2 i (0 : Fin 1)) := by
  refine ext_ix2 fun i j => ?_
  exact broadcastInDim_apply ![0, 1] b2 a (ix2 i j) (ix2 i (0 : Fin 1)) (by
    intro b
    match b with
    | ⟨0, _⟩ =>
      show i.val = if N = 1 then 0 else i.val
      split
      · have := i.isLt; omega
      · rfl
    | ⟨1, _⟩ => rfl)

/-- One value per row given a unit feature axis, the host's way. -/
theorem hcol1_eq (c : FVec Ideal ⟨1, ![N]⟩ .f32) (b1 : (⟨1, ![N]⟩ : Shape).BroadcastsInDim ⟨2, ![N, 1]⟩ ![0]) :
    broadcastInDim ⟨2, ![N, 1]⟩ ![0] b1 c = ofRows fun i _ => valOf c i := by
  refine ext_ix2 fun i j => ?_
  exact broadcastInDim_apply ![0] b1 c (ix2 i j) (ix1 i) (by
    intro b
    match b with
    | ⟨0, _⟩ =>
      show i.val = if N = 1 then 0 else i.val
      split
      · have := i.isLt; omega
      · rfl)

/-- The host's product contracting the last axis of both operands, at (i, j): ∑ₖ l (i,k) · r (j,k). -/
theorem dotGeneral_trhs_apply (l : FVec Ideal ⟨2, ![N, K]⟩ .f32) (r : FVec Ideal ⟨2, ![M, K]⟩ .f32) (i : Fin N) (j : Fin M) :
    Host.dotGeneral (DotDims.transposedRhs N K M) none l r (ix2 i j) = ∑ k : Fin K, l (ix2 i k) * r (ix2 j k) := by
  show FloatOps.dotGeneral (DotDims.transposedRhs N K M) none .single l r (ix2 i j) = _
  rw [Ideal.dotGeneral_apply]
  exact trhs_sum l r i j

/-! ## A row divided by its clamped length -/

/-- `v` over its Euclidean length, the length clamped below by the value of the word `b`. -/
def unitRow (b : BitVec 32) (v : Fin D → EReal) : Fin D → EReal :=
  fun d => Ideal.div (v d) (max (Ideal.sqrt (∑ e : Fin D, v e * v e)) (Ideal.ofBits .f32 b))

/-- The kernel's spelling: the lane sum of squares, a unit axis, the root, the clamp against a splat, the column
    broadcast along the row, the quotient. -/
theorem knormalize_eq (x : FVec Ideal ⟨2, ![N, D]⟩ .f32) (b : BitVec 32)
    (h : (⟨2, ![N, D]⟩ : Shape).Reduces [1] ⟨1, ![N]⟩) (hφ : FKind.Formats .f32)
    (hacc : (0x00000000#32 : BitVec 32) = FKind.add.neutral .f32 hφ)
    (sc : (⟨1, ![N]⟩ : Shape).ShapeCasts ⟨2, ![N, 1]⟩) (bc : (⟨2, ![N, 1]⟩ : Shape).Broadcasts ⟨2, ![N, D]⟩) :
    divf x (broadcastTo ⟨2, ![N, D]⟩
        (maximumf (sqrt (shapeCast ⟨2, ![N, 1]⟩ (multiReduction .add [1] ⟨1, ![N]⟩ (mulf x x) 0x00000000#32 h hφ hacc) sc))
          (broadcast ⟨2, ![N, 1]⟩ (Scalar.ofBits (F := Ideal) .f32 b))) bc)
      = ofRows fun i => unitRow b (rowOf x i) := by
  rw [mulf_rows, ksum_eq, kcol1_eq, sqrt_rows, maximumf_rows, kspread_eq, divf_rows]
  rfl

/-- The host's spelling: `reduce` from zero, `broadcast_in_dim` to a column, the root, the clamp against a broadcast
    constant, `broadcast_in_dim` along the row, the quotient. -/
theorem hnormalize_eq (x : FVec Ideal ⟨2, ![N, D]⟩ .f32) (b : BitVec 32)
    (h' : (⟨2, ![N, D]⟩ : Shape).ReducesTo [1] ⟨1, ![N]⟩) (h : (⟨2, ![N, D]⟩ : Shape).Reduces [1] ⟨1, ![N]⟩)
    (hu : 0 < (⟨0, ![]⟩ : Shape).numel)
    (b1 : (⟨1, ![N]⟩ : Shape).BroadcastsInDim ⟨2, ![N, 1]⟩ ![0])
    (b0 : (⟨0, ![]⟩ : Shape).BroadcastsInDim ⟨2, ![N, 1]⟩ ![])
    (b2 : (⟨2, ![N, 1]⟩ : Shape).BroadcastsInDim ⟨2, ![N, D]⟩ ![0, 1]) :
    Host.divf x (broadcastInDim ⟨2, ![N, D]⟩ ![0, 1] b2
        (maximumf (Host.sqrt (broadcastInDim ⟨2, ![N, 1]⟩ ![0] b1
            (Host.reduceAdd (mulf x x) (constant (F := Ideal) ⟨0, ![]⟩ .f32 0x00000000#32) h' hu)))
          (broadcastInDim ⟨2, ![N, 1]⟩ ![] b0 (constant (F := Ideal) ⟨0, ![]⟩ .f32 b))))
      = ofRows fun i => unitRow b (rowOf x i) := by
  rw [mulf_rows, hsum_eq _ h' h hu, hcol1_eq, hsqrt_rows, maximumf_rows, hspread_eq, hdivf_rows]
  rfl

/-! ## Inner products with every row of a table -/

/-- The inner products of `u` with the rows of `w`. -/
def dots (w : (⟨2, ![K, D]⟩ : Shape).Idx → EReal) (u : Fin D → EReal) : Fin K → EReal :=
  fun k => ∑ d : Fin D, u d * w (ix2 k d)

/-- The kernel's spelling, whatever the operands' float formats. -/
theorem kdots_eq {φ₁ φ₂ : FTy} (a : FVec Ideal ⟨2, ![N, D]⟩ φ₁) (w : FVec Ideal ⟨2, ![K, D]⟩ φ₂) :
    matmul (DotDims.transposedRhs N D K) none a w (constant ⟨2, ![N, K]⟩ .f32 0x00000000#32)
      = ofRows fun i => dots w fun d => a (ix2 i d) :=
  ext_ix2 fun i j => by rw [matmul_trhs_apply]; rfl

/-- The host's spelling. -/
theorem hdots_eq (a : FVec Ideal ⟨2, ![N, D]⟩ .f32) (w : FVec Ideal ⟨2, ![K, D]⟩ .f32) :
    Host.dotGeneral (DotDims.transposedRhs N D K) none a w = ofRows fun i => dots w (rowOf a i) :=
  ext_ix2 fun i j => by rw [dotGeneral_trhs_apply]; rfl

/-- The kernel's cosine scores: the rows divided by their clamped lengths, changed to a narrower float format (no change
    at the ideal values), multiplied with the table. -/
theorem kcosine_eq {φ₂ : FTy} (x : FVec Ideal ⟨2, ![N, D]⟩ .f32) (w : FVec Ideal ⟨2, ![K, D]⟩ φ₂) (b : BitVec 32)
    (h : (⟨2, ![N, D]⟩ : Shape).Reduces [1] ⟨1, ![N]⟩) (hφ : FKind.Formats .f32)
    (hacc : (0x00000000#32 : BitVec 32) = FKind.add.neutral .f32 hφ)
    (sc : (⟨1, ![N]⟩ : Shape).ShapeCasts ⟨2, ![N, 1]⟩) (bc : (⟨2, ![N, 1]⟩ : Shape).Broadcasts ⟨2, ![N, D]⟩)
    (hb : FTy.bits .bf16 < FTy.bits .f32) :
    matmul (DotDims.transposedRhs N D K) none
        (truncf .bf16 (divf x (broadcastTo ⟨2, ![N, D]⟩
          (maximumf (sqrt (shapeCast ⟨2, ![N, 1]⟩ (multiReduction .add [1] ⟨1, ![N]⟩ (mulf x x) 0x00000000#32 h hφ hacc) sc))
            (broadcast ⟨2, ![N, 1]⟩ (Scalar.ofBits (F := Ideal) .f32 b))) bc)) hb)
        w (constant ⟨2, ![N, K]⟩ .f32 0x00000000#32)
      = ofRows fun i => dots w (unitRow b (rowOf x i)) := by
  rw [kdots_eq, knormalize_eq]
  rfl

/-- The host's cosine scores: both operands' rows divided by their clamped lengths, then the product. -/
theorem hcosine_eq (x : FVec Ideal ⟨2, ![N, D]⟩ .f32) (mu : FVec Ideal ⟨2, ![K, D]⟩ .f32) (b : BitVec 32) :
    Host.dotGeneral (DotDims.transposedRhs N D K) none (ofRows fun i => unitRow b (rowOf x i)) (ofRows fun k => unitRow b (rowOf mu k))
      = ofRows fun i => dots (ofRows fun k => unitRow b (rowOf mu k)) (unitRow b (rowOf x i)) := by
  rw [hdots_eq]
  rfl

/-! ## Softmax along a row -/

/-- The softmax of a row, shifted by its maximum. -/
def softmaxRow (s : Fin K → EReal) : Fin K → EReal :=
  fun k => Ideal.div (Ideal.exp (s k - rowMax s)) (∑ j : Fin K, Ideal.exp (s j - rowMax s))

/-- The fold of `max` is at least the value it starts from. -/
theorem max_init_rowMax (v : Fin M → EReal) : max (Ideal.ofBits .f32 0xFF800000#32) (rowMax v) = rowMax v :=
  max_eq_right ((Finset.le_fold_max _).mpr (Or.inl le_rfl))

/-- The kernel's numerator: exp of the row shifted by its lane maximum. -/
theorem kexpshift_eq (s : FVec Ideal ⟨2, ![N, K]⟩ .f32)
    (h : (⟨2, ![N, K]⟩ : Shape).Reduces [1] ⟨1, ![N]⟩) (hφ : FKind.Formats .f32)
    (hacc : (0xFF800000#32 : BitVec 32) = FKind.maximumf.neutral .f32 hφ)
    (sc : (⟨1, ![N]⟩ : Shape).ShapeCasts ⟨2, ![N, 1]⟩) (bc : (⟨2, ![N, 1]⟩ : Shape).Broadcasts ⟨2, ![N, K]⟩) :
    exp (subf s (broadcastTo ⟨2, ![N, K]⟩
        (shapeCast ⟨2, ![N, 1]⟩ (multiReduction .maximumf [1] ⟨1, ![N]⟩ s 0xFF800000#32 h hφ hacc) sc) bc))
      = ofRows fun i k => Ideal.exp (rowOf s i k - rowMax (rowOf s i)) := by
  rw [kmax_eq, kcol_eq, subf_rows, exp_rows]
  rfl

/-- The kernel's quotient by the lane sum. -/
theorem kdivsum_eq (v e : FVec Ideal ⟨2, ![N, K]⟩ .f32)
    (h : (⟨2, ![N, K]⟩ : Shape).Reduces [1] ⟨1, ![N]⟩) (hφ : FKind.Formats .f32)
    (hacc : (0x00000000#32 : BitVec 32) = FKind.add.neutral .f32 hφ)
    (sc : (⟨1, ![N]⟩ : Shape).ShapeCasts ⟨2, ![N, 1]⟩) (bc : (⟨2, ![N, 1]⟩ : Shape).Broadcasts ⟨2, ![N, K]⟩) :
    divf v (broadcastTo ⟨2, ![N, K]⟩
        (shapeCast ⟨2, ![N, 1]⟩ (multiReduction .add [1] ⟨1, ![N]⟩ e 0x00000000#32 h hφ hacc) sc) bc)
      = ofRows fun i k => Ideal.div (rowOf v i k) (∑ j : Fin K, rowOf e i j) := by
  rw [ksum_eq, kcol_eq, divf_rows]
  rfl

/-- The host's numerator: the row maximum from −∞, joined once more with −∞, broadcast in two steps, subtracted,
    exponentiated. -/
theorem hexpshift_eq (s : FVec Ideal ⟨2, ![N, K]⟩ .f32)
    (h' : (⟨2, ![N, K]⟩ : Shape).ReducesTo [1] ⟨1, ![N]⟩) (h : (⟨2, ![N, K]⟩ : Shape).Reduces [1] ⟨1, ![N]⟩)
    (hu : 0 < (⟨0, ![]⟩ : Shape).numel)
    (b0 : (⟨0, ![]⟩ : Shape).BroadcastsInDim ⟨1, ![N]⟩ ![])
    (b1 : (⟨1, ![N]⟩ : Shape).BroadcastsInDim ⟨2, ![N, 1]⟩ ![0])
    (b2 : (⟨2, ![N, 1]⟩ : Shape).BroadcastsInDim ⟨2, ![N, K]⟩ ![0, 1]) :
    Host.exp (subf s (broadcastInDim ⟨2, ![N, K]⟩ ![0, 1] b2 (broadcastInDim ⟨2, ![N, 1]⟩ ![0] b1
        (maximumf (broadcastInDim ⟨1, ![N]⟩ ![] b0 (constant (F := Ideal) ⟨0, ![]⟩ .f32 0xFF800000#32))
          (Host.reduce FloatOps.maximumf s (constant (F := Ideal) ⟨0, ![]⟩ .f32 0xFF800000#32) h' hu)))))
      = ofRows fun i k => Ideal.exp (rowOf s i k - rowMax (rowOf s i)) := by
  rw [hmax_eq s h' h hu, maximumf_vals, hcol_eq, subf_rows, hexp_rows]
  refine ext_ix2 fun i k => ?_
  show Ideal.exp (s (ix2 i k) - max (Ideal.ofBits .f32 0xFF800000#32) (rowMax (rowOf s i))) = _
  rw [max_init_rowMax]
  rfl

/-- The host's quotient by the row sum. -/
theorem hdivsum_eq (v e : FVec Ideal ⟨2, ![N, K]⟩ .f32)
    (h' : (⟨2, ![N, K]⟩ : Shape).ReducesTo [1] ⟨1, ![N]⟩) (h : (⟨2, ![N, K]⟩ : Shape).Reduces [1] ⟨1, ![N]⟩)
    (hu : 0 < (⟨0, ![]⟩ : Shape).numel)
    (b1 : (⟨1, ![N]⟩ : Shape).BroadcastsInDim ⟨2, ![N, 1]⟩ ![0])
    (b2 : (⟨2, ![N, 1]⟩ : Shape).BroadcastsInDim ⟨2, ![N, K]⟩ ![0, 1]) :
    Host.divf v (broadcastInDim ⟨2, ![N, K]⟩ ![0, 1] b2 (broadcastInDim ⟨2, ![N, 1]⟩ ![0] b1
        (Host.reduceAdd e (constant (F := Ideal) ⟨0, ![]⟩ .f32 0x00000000#32) h' hu)))
      = ofRows fun i k => Ideal.div (rowOf v i k) (∑ j : Fin K, rowOf e i j) := by
  rw [hsum_eq e h' h hu, hcol_eq, hdivf_rows]
  rfl

/-- Numerator over its row sum is the softmax of the row. -/
theorem softmax_of_expshift (s : FVec Ideal ⟨2, ![N, K]⟩ .f32) :
    (ofRows fun i k => Ideal.div (rowOf (ofRows fun i k => Ideal.exp (rowOf s i k - rowMax (rowOf s i))) i k)
        (∑ j : Fin K, rowOf (ofRows fun i k => Ideal.exp (rowOf s i k - rowMax (rowOf s i))) i j))
      = (ofRows fun i => softmaxRow (rowOf s i) : FVec Ideal ⟨2, ![N, K]⟩ .f32) := rfl

/-! ## The whole operator -/

/-- Row `n` of the result: the softmax over the classes of the cosine similarities of row `n` of `x` with the rows of
    `mu`, every length clamped below by the value of the word `b`. -/
def cosineSoftmax (b : BitVec 32) (x : FVec Ideal ⟨2, ![N, D]⟩ .f32) (mu : FVec Ideal ⟨2, ![K, D]⟩ .f32) :
    FVec Ideal ⟨2, ![N, K]⟩ .f32 :=
  ofRows fun n => softmaxRow (dots (ofRows fun k => unitRow b (rowOf mu k)) (unitRow b (rowOf x n)))

end Idealize.ShloMosaic.Rows

end
-- ==== Proof.Payload.lean ====
/-
  The kernel body's stored value, read at an index: an attention row.
-/
import proofs.«406537_j65481071409934_3_alg».proof.Proof.Gen.KernelIdeal.Skeleton
import proofs.«406537_j65481071409934_3_alg».proof.Proof.Spec
import proofs.«406537_j65481071409934_3_alg».proof.Proof.LibCosineSoftmax

noncomputable section

namespace Cert.KernelIdeal.Pay

open Idealize.ShloMosaic Idealize.ShloMosaic.ValueIdx Idealize.ShloMosaic.Rows Cert.KernelIdeal Cert.KernelIdeal.Gen

/-! ## The four products' dimension records -/

/-- Query rows times the query matrix: a plain product, 512 × 64 by 64 × 64. -/
private theorem dotA_eq : dot_S512x64_S64x64_S512x64_1_0_0_1_n_n = DotDims.plain 512 64 64 := rfl
/-- Key rows times the key matrix: a plain product, 4096 × 64 by 64 × 64. -/
private theorem dotB_eq : dot_S4096x64_S64x64_S4096x64_1_0_0_1_n_n = DotDims.plain 4096 64 64 := rfl
/-- Weights times value rows: a plain product, 512 × 4096 by 4096 × 64. -/
private theorem dotC_eq : dot_S512x4096_S4096x64_S512x64_1_0_0_1_n_n = DotDims.plain 512 4096 64 := rfl
/-- Projected queries against projected keys: both operands contracted on their feature axis. -/
private theorem dotT_eq : dot_S512x64_S4096x64_S512x4096_1_1_0_0_n_n = DotDims.transposedRhs 512 64 4096 := rfl

/-! ## A leading unit axis dropped and restored -/

/-- Entry (r, e) of a slab with its leading unit axis dropped is entry (0, r, e) of the slab: both sit at
    row-major position r · 64 + e. -/
private theorem cast_drop {n : ℕ} (v : FVec Ideal ⟨3, ![1, n, 64]⟩ .f32)
    (h : (⟨3, ![1, n, 64]⟩ : Shape).ShapeCasts ⟨2, ![n, 64]⟩) (r : Fin n) (e : Fin 64) :
    shapeCast ⟨2, ![n, 64]⟩ v h (ix2 r e) = v (ix3 (0 : Fin 1) r e) :=
  shapeCast_apply v h (ix2 r e) (ix3 (0 : Fin 1) r e) (by
    rw [Shape.rowMajor_val_three, Shape.rowMajor_val_two]
    show ((0 : ℕ) * n + r.val) * 64 + e.val = r.val * 64 + e.val
    omega)

/-- The same as a family of rows: row r is e ↦ v (0, r, e). -/
private theorem cast_rows {n : ℕ} (v : FVec Ideal ⟨3, ![1, n, 64]⟩ .f32)
    (h : (⟨3, ![1, n, 64]⟩ : Shape).ShapeCasts ⟨2, ![n, 64]⟩) :
    shapeCast ⟨2, ![n, 64]⟩ v h = ofRows fun r e => v (ix3 (0 : Fin 1) r e) :=
  ext_ix2 fun r e => cast_drop v h r e

/-- Entry (0, r, e) of an array given a leading unit axis is its entry (r, e). -/
private theorem cast_add {n : ℕ} (v : FVec Ideal ⟨2, ![n, 64]⟩ .f32)
    (h : (⟨2, ![n, 64]⟩ : Shape).ShapeCasts ⟨3, ![1, n, 64]⟩) (r : Fin n) (e : Fin 64) :
    shapeCast ⟨3, ![1, n, 64]⟩ v h (ix3 (0 : Fin 1) r e) = v (ix2 r e) :=
  shapeCast_apply v h (ix3 (0 : Fin 1) r e) (ix2 r e) (by
    rw [Shape.rowMajor_val_three, Shape.rowMajor_val_two]
    show r.val * 64 + e.val = ((0 : ℕ) * n + r.val) * 64 + e.val
    omega)

/-! ## Rows of a product with a square matrix -/

/-- Row i of a · W is the projection of row i of a:  e ↦ ∑_d a (i, d) · W (d, e). -/
private theorem kproj_eq {N D : ℕ} (a : FVec Ideal ⟨2, ![N, D]⟩ .f32) (W : FVec Ideal ⟨2, ![D, D]⟩ .f32) :
    matmul (DotDims.plain N D D) none a W (constant ⟨2, ![N, D]⟩ .f32 0x00000000#32)
      = ofRows fun i => Cert.Attn.proj W (rowOf a i) :=
  ext_ix2 fun i j => by rw [matmul_plain_apply]; rfl

/-- Entry k of row i. -/
private theorem rowOf_apply {N K : ℕ} (A : FVec Ideal ⟨2, ![N, K]⟩ .f32) (i : Fin N) (k : Fin K) :
    rowOf A i k = A (ix2 i k) := rfl

/-! ## The stored value -/

/-- Entry (0, r, d) of the stored value. Both slabs lose their unit axis; the query rows and the key rows are
    projected, the projected queries scaled by the word of 1/8; the logits of query row r are its inner products
    with every projected key row; the weights are exp of the logits shifted by their row maximum; the result is
    ∑ⱼ weight j · (value row j) d times the reciprocal of ∑ⱼ weight j. That is the attention row of query row r of
    the slab against all its rows, at feature d. -/
theorem pay_apply (v0 : Vec Ideal S1x512x64 .f32) (v2 : Vec Ideal S1x4096x64 .f32) (v4 v5 : Vec Ideal S64x64 .f32)
    (r : Fin 512) (d : Fin 64) :
    k0_pay1 (F := Ideal) v0 v2 v4 v5 (ix3 (0 : Fin 1) r d)
      = Cert.Attn.attnRow v4 v5 (fun e => v0 (ix3 (0 : Fin 1) r e)) (fun j e => v2 (ix3 (0 : Fin 1) j e)) d := by
  unfold k0_pay1
  -- the outer unit axis, then the four products by their shapes
  rw [cast_add]
  rw [dotA_eq, dotB_eq, dotC_eq, dotT_eq]
  -- the two slabs as families of rows, and their projections
  rw [cast_rows v0, cast_rows v2]
  rw [kproj_eq, kproj_eq]
  -- the weights: exp of the logits shifted by the row maximum; the logits as inner products
  erw [kexpshift_eq]
  rw [kdots_eq]
  -- the weights' total per row, as a column, laid along the row
  erw [ksum_eq]
  rw [kcol1_eq, kspread_eq]
  -- the last product at (r, d), times the reciprocal of the total
  rw [mulf_rows, ofRows_apply, rowOf_apply, matmul_plain_apply]
  rfl

end Cert.KernelIdeal.Pay

end
-- ==== Proof.ValueKI.lean ====
/-
  What the attention program leaves in its result array: at (b, s, d), feature `d` of the attention row of query
  `s` within slab `b` of `inputs` (Spec.lean's `G`).

  Grid point (b, qi) writes back the (1, 512, 64) block at block index (b, qi, 0). The body's stored value at
  (0, r, d) is the attention row of the query-tile block's row `r` against the slab block's rows; the query-tile
  block at (b, qi) holds rows 512·qi + r of slab `b`, the slab block all of slab `b`, and the two matrix blocks are the
  whole matrices. So the block written back is block (b, qi, 0) of `G` of the argument arrays; the 32 blocks tile
  the array, hence it ends holding `G`.
-/
import proofs.«406537_j65481071409934_3_alg».proof.Proof.FrameKI
import proofs.«406537_j65481071409934_3_alg».proof.Proof.Payload
import Idealize.ShloMosaic.Lib.Pipeline.Value

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The blocks and the arrays at their literal types -/

abbrev xq (c : Dev nD) (t : Fin cfg0.N) : Vec Ideal S1x512x64 .f32 := iblk m c 0 t
abbrev xk (c : Dev nD) (t : Fin cfg0.N) : Vec Ideal S1x4096x64 .f32 := iblk m c 1 t
abbrev wr (c : Dev nD) (t : Fin cfg0.N) : Vec Ideal S64x64 .f32 := iblk m c 2 t
abbrev we (c : Dev nD) (t : Fin cfg0.N) : Vec Ideal S64x64 .f32 := iblk m c 3 t
abbrev ax (c : Dev nD) : Vec Ideal S4x4096x64 .f32 := V m c main_arg0
abbrev ar (c : Dev nD) : Vec Ideal S64x64 .f32 := V m c main_arg1
abbrev ae (c : Dev nD) : Vec Ideal S64x64 .f32 := V m c main_arg2

/-- The printed index maps, decided over the 32 grid points: the query-tile window moves with the output window, the
    slab window with its batch coordinate only, the matrices' windows not at all. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) ≤ 3 ∧ win0_4.index t (1 : Fin 3) ≤ 7 ∧ win0_4.index t (2 : Fin 3) = 0 :=
  (by decide +kernel : ∀ t : Fin grid0.N, _)

/-- Every (batch, query tile) pair is some point's output block. -/
theorem idx_onto : ∀ (q0 : Fin 4) (q1 : Fin 8), ∃ t : Fin cfg0.N, win0_4.index t = ![q0.val, q1.val, 0] :=
  (by decide +kernel : ∀ (q0 : Fin 4) (q1 : Fin 8), ∃ t : Fin grid0.N, win0_4.index t = ![q0.val, q1.val, 0])

/-- Row `r` of the query-tile block is row 512·qi + r of slab b. -/
theorem xq_apply (c : Dev nD) (t : Fin cfg0.N) (r : Fin 512) (e : Fin 64) (i : S4x4096x64.Idx)
    (h0 : (i 0).val = win0_4.index t (0 : Fin 3)) (h1 : (i 1).val = win0_4.index t (1 : Fin 3) * 512 + r.val) (h2 : (i 2).val = e.val) :
    xq m c t (ix3 (0 : Fin 1) r e) = ax m c i := by
  show V m c main_arg0 (((cfg0.win 0).blk t).view.emb (ix3 (0 : Fin 1) r e)) = V m c main_arg0 i
  obtain ⟨f0, f1, f2, -⟩ := idx_facts t
  refine congrArg _ (funext fun a => Fin.ext ?_)
  match a with
  | ⟨0, _⟩ => show win0_0.index t (0 : Fin 3) * 1 + 1 * 0 = (i 0).val; omega
  | ⟨1, _⟩ => show win0_0.index t (1 : Fin 3) * 512 + 1 * r.val = (i 1).val; omega
  | ⟨2, _⟩ => show win0_0.index t (2 : Fin 3) * 64 + 1 * e.val = (i 2).val; omega

/-- Row `j` of the slab block is row `j` of slab b. -/
theorem xk_apply (c : Dev nD) (t : Fin cfg0.N) (j : Fin 4096) (e : Fin 64) (i : S4x4096x64.Idx)
    (h0 : (i 0).val = win0_4.index t (0 : Fin 3)) (h1 : (i 1).val = j.val) (h2 : (i 2).val = e.val) :
    xk m c t (ix3 (0 : Fin 1) j e) = ax m c i := by
  show V m c main_arg0 (((cfg0.win 1).blk t).view.emb (ix3 (0 : Fin 1) j e)) = V m c main_arg0 i
  obtain ⟨-, -, -, f0, f1, f2, -⟩ := idx_facts t
  refine congrArg _ (funext fun a => Fin.ext ?_)
  match a with
  | ⟨0, _⟩ => show win0_1.index t (0 : Fin 3) * 1 + 1 * 0 = (i 0).val; omega
  | ⟨1, _⟩ => show win0_1.index t (1 : Fin 3) * 4096 + 1 * j.val = (i 1).val; omega
  | ⟨2, _⟩ => show win0_1.index t (2 : Fin 3) * 64 + 1 * e.val = (i 2).val; omega

/-- The matrices' blocks are the matrices. -/
theorem wr_eq (c : Dev nD) (t : Fin cfg0.N) : wr m c t = ar m c := by
  funext y
  show V m c main_arg1 (((cfg0.win 2).blk t).view.emb y) = V m c main_arg1 y
  obtain ⟨-, -, -, -, -, -, f0, f1, -⟩ := idx_facts t
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

theorem we_eq (c : Dev nD) (t : Fin cfg0.N) : we m c t = ae m c := by
  funext y
  show V m c main_arg2 (((cfg0.win 3).blk t).view.emb y) = V m c main_arg2 y
  obtain ⟨-, -, -, -, -, -, -, -, f0, f1, -⟩ := idx_facts t
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

/-! ## What a point writes back -/

/-- The result as one function of the argument arrays as the region finds them. -/
abbrev GG (c : Dev nD) : Vec Ideal S4x4096x64 .f32 := Cert.Attn.G (ax m c) (ar m c) (ae m c)

/-- Point `t` writes back block `t` of `GG`. -/
theorem flushed_eq (c : Dev nD) (t : Fin cfg0.N) :
    (dats m 0 c).flushed 4 t = ((cfg0.win 4).blk t).view.read (Elt Ideal) (GG m c) := by
  show (cfg0.win 4).cut (grid0.coords t) ((dats m 0 c).after 4 t) = _
  rw [after4]
  unfold out4
  rw [View.canon_unit_zero hz3]
  simp only [View.ld_unit_zero (S := S1x512x64) hz3, View.ld_unit_zero (S := S1x4096x64) hz3, View.ld_unit_zero (S := S64x64) hz2]
  funext j
  obtain ⟨z, r, d, rfl⟩ : ∃ (z : Fin 1) (r : Fin 512) (d : Fin 64), j = ix3 z r d := ⟨j 0, j 1, j 2, eq_ix3 j⟩
  obtain rfl : z = 0 := Subsingleton.elim _ _
  show k0_pay1 (xq m c t) (xk m c t) (wr m c t) (we m c t) (ix3 (0 : Fin 1) r d)
    = GG m c (((cfg0.win 4).blk t).view.emb (ix3 (0 : Fin 1) r d))
  rw [Cert.KernelIdeal.Pay.pay_apply, wr_eq, we_eq]
  obtain ⟨-, -, -, -, -, -, -, -, -, -, g0, g1, g2⟩ := idx_facts t
  have hI0 : ((((cfg0.win 4).blk t).view.emb (ix3 (0 : Fin 1) r d)) 0).val = win0_4.index t (0 : Fin 3) * 1 + 1 * 0 := rfl
  have hI1 : ((((cfg0.win 4).blk t).view.emb (ix3 (0 : Fin 1) r d)) 1).val = win0_4.index t (1 : Fin 3) * 512 + 1 * r.val := rfl
  have hI2 : ((((cfg0.win 4).blk t).view.emb (ix3 (0 : Fin 1) r d)) 2).val = win0_4.index t (2 : Fin 3) * 64 + 1 * d.val := rfl
  generalize ((cfg0.win 4).blk t).view.emb (ix3 (0 : Fin 1) r d) = I at hI0 hI1 hI2
  show _ = Cert.Attn.attnRow (ar m c) (ae m c) (Cert.Attn.slab (ax m c) (I 0) (I 1)) (Cert.Attn.slab (ax m c) (I 0)) (I 2)
  have hq : (fun e => xq m c t (ix3 (0 : Fin 1) r e)) = Cert.Attn.slab (ax m c) (I 0) (I 1) :=
    funext fun e => xq_apply m c t r e (ix3 (I 0) (I 1) e) (by show (I 0).val = _; omega) (by show (I 1).val = _; omega) rfl
  have hk : (fun j e => xk m c t (ix3 (0 : Fin 1) j e)) = Cert.Attn.slab (ax m c) (I 0) :=
    funext fun j => funext fun e => xk_apply m c t j e (ix3 (I 0) j e) (by show (I 0).val = _; omega) rfl rfl
  have hd : (I 2) = d := Fin.ext (by rw [hI2]; omega)
  rw [hq, hk, hd]

/-! ## The blocks tile the array -/

theorem mem_blk (t : Fin cfg0.N) (i : S4x4096x64.Idx) :
    i ∈ ((cfg0.win 4).blk t).view.set ↔ ∀ a : Fin 3, win0_4.index t a * S1x512x64.size a ≤ (i a).val ∧ (i a).val < win0_4.index t a * S1x512x64.size a + S1x512x64.size a := by
  show i ∈ ((View.whole main_v0).slice (win0_4.rect t)).set ↔ _
  rw [View.set_slice_whole, Rect.mem_set_unit]
  exact Iff.rfl

/-- Every index of the result array lies in the block of the point at (its batch, its query tile). -/
theorem cover (i : S4x4096x64.Idx) : ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 64 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-- The result array after the run. -/
theorem final (c : Dev nD) : (dats m 0 c).arrAt 4 cfg0.N = GG m c :=
  (dats m 0 c).arrAt_eq_of_cover 4 (GG m c) (fun t _ => flushed_eq m c t) cover

/-! ## The run, read -/

/-- Every weakly fair execution terminates with the result array at `G` of the argument arrays and the arguments as
    they were. -/
theorem run : θ_run defs (onTc (τ := τ) (main (F := Ideal))) ⟨m, fun _ => 0, ρ⟩ fun r => ∀ c : Dev nD,
      r.2.mem ((c.tc : Thread nD τ).loc main_v0)
        = Cert.Attn.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c 4).trans (final m c),
      (h c 0).trans (((dats m 0 c).arrAt_in 0 rfl _).trans (A_eq m c 0)),
      (h c 2).trans (((dats m 0 c).arrAt_in 2 rfl _).trans (A_eq m c 2)),
      (h c 3).trans (((dats m 0 c).arrAt_in 3 rfl _).trans (A_eq m c 3))⟩) (run_main m ρ)

end Cert.KernelIdeal.HandValue

end
-- ==== Proof.Ref.lean ====
/-
  The reference's result, stage by stage, is the attention of every slab in the second spelling.
-/
import proofs.«406537_j65481071409934_3_alg».proof.Proof.Gen.ReferenceIdeal.Read
import proofs.«406537_j65481071409934_3_alg».proof.Proof.Spec
import proofs.«406537_j65481071409934_3_alg».proof.Proof.LibCosineSoftmax

noncomputable section

namespace Cert.ReferenceIdeal.RefValue

open Idealize.ShloMosaic Idealize.ShloMosaic.ValueIdx Idealize.ShloMosaic.Rows Cert.ReferenceIdeal Cert.ReferenceIdeal.Gen Cert.ReferenceIdeal.Read

section Stages

open Cert.Attn

/-- The two projections: entry (b, s, e) of the product of the input with a matrix is feature e of the projected row. -/
private theorem v0_at (x0 : (⟨S4x4096x64, .f32⟩ : BufTy).Contents (Elt Ideal)) (x1 : (⟨S64x64, .f32⟩ : BufTy).Contents (Elt Ideal))
    (b : Fin 4) (s : Fin 4096) (e : Fin 64) :
    val_main_v0 (F := Ideal) x0 x1 (ix3 b s e) = proj x1 (slab x0 b s) e := by
  rw [val_main_v0_apply]
  unfold proj slab
  refine Finset.sum_congr rfl fun k _ => ?_
  have el : lidx_main_v0 (ix3 b s e) k = ix3 b s k :=
    funext fun a => Fin.ext (by match a with | ⟨0, _⟩ => rfl | ⟨1, _⟩ => rfl | ⟨2, _⟩ => rfl)
  have er : ridx_main_v0 (ix3 b s e) k = ix2 k e :=
    funext fun a => Fin.ext (by match a with | ⟨0, _⟩ => rfl | ⟨1, _⟩ => rfl)
  rw [el, er]

private theorem v1_at (x0 : (⟨S4x4096x64, .f32⟩ : BufTy).Contents (Elt Ideal)) (x2 : (⟨S64x64, .f32⟩ : BufTy).Contents (Elt Ideal))
    (b : Fin 4) (s : Fin 4096) (e : Fin 64) :
    val_main_v1 (F := Ideal) x0 x2 (ix3 b s e) = proj x2 (slab x0 b s) e := by
  rw [val_main_v1_apply]
  unfold proj slab
  refine Finset.sum_congr rfl fun k _ => ?_
  have el : lidx_main_v1 (ix3 b s e) k = ix3 b s k :=
    funext fun a => Fin.ext (by match a with | ⟨0, _⟩ => rfl | ⟨1, _⟩ => rfl | ⟨2, _⟩ => rfl)
  have er : ridx_main_v1 (ix3 b s e) k = ix2 k e :=
    funext fun a => Fin.ext (by match a with | ⟨0, _⟩ => rfl | ⟨1, _⟩ => rfl)
  rw [el, er]

/-- The scaled logits: entry (b, s, j) is logit j of query row s of slab b. -/
private theorem v6_at (x0 : (⟨S4x4096x64, .f32⟩ : BufTy).Contents (Elt Ideal)) (x1 x2 : (⟨S64x64, .f32⟩ : BufTy).Contents (Elt Ideal))
    (b : Fin 4) (s j : Fin 4096) :
    val_main_v6 (F := Ideal) x0 x1 x2 (ix3 b s j) = logitsR x1 x2 (slab x0 b s) (slab x0 b) j := by
  rw [val_main_v6_apply, val_main_v4_apply, val_main_v5_apply, val_main_v3_apply, val_main_cst_0_apply, val_main_v2_apply,
    val_main_cst_apply]
  unfold logitsR
  show (∑ k : Fin 64, _) * Ideal.div wOne (Ideal.sqrt wDim) = _
  refine congrArg (· * Ideal.div wOne (Ideal.sqrt wDim)) (Finset.sum_congr rfl fun k _ => ?_)
  have el : lidx_main_v4 (ix3 b s j) k = ix3 b s k :=
    funext fun a => Fin.ext (by match a with | ⟨0, _⟩ => rfl | ⟨1, _⟩ => rfl | ⟨2, _⟩ => rfl)
  have er : ridx_main_v4 (ix3 b s j) k = ix3 b j k :=
    funext fun a => Fin.ext (by match a with | ⟨0, _⟩ => rfl | ⟨1, _⟩ => rfl | ⟨2, _⟩ => rfl)
  rw [el, er, v0_at, v1_at]

/-- The row maxima: entry (b, s) is the largest logit of query row s of slab b. -/
private theorem v9_at (x0 : (⟨S4x4096x64, .f32⟩ : BufTy).Contents (Elt Ideal)) (x1 x2 : (⟨S64x64, .f32⟩ : BufTy).Contents (Elt Ideal))
    (b : Fin 4) (s : Fin 4096) :
    val_main_v9 (F := Ideal) x0 x1 x2 (ix2 b s) = rowMax (logitsR x1 x2 (slab x0 b s) (slab x0 b)) := by
  have h : S4x4096x4096.Reduces [2] S4x4096 := by decide
  rw [val_main_v9_apply, val_main_v8_apply, val_main_cst_2_apply]
  unfold val_main_v7
  rw [Host.reduce_eq_fold_single FloatOps.maximumf _ _ reducesTo_S4x4096x4096_S4x4096_d2 h h_S_, val_main_cst_1_apply]
  have e : (val_main_v6 (F := Ideal) x0 x1 x2 ∘ h.lift (ix2 b s)) = logitsR x1 x2 (slab x0 b s) (slab x0 b) := by
    refine funext fun (k : Fin 4096) => ?_
    have el : h.lift (ix2 b s) k = ix3 b s k :=
      funext fun a => Fin.ext (by match a with | ⟨0, _⟩ => rfl | ⟨1, _⟩ => rfl | ⟨2, _⟩ => rfl)
    show val_main_v6 (F := Ideal) x0 x1 x2 (h.lift (ix2 b s) k) = _
    rw [el, v6_at]
  rw [e]
  exact max_init_rowMax _

/-- The unnormalised weights. -/
private theorem v13_at (x0 : (⟨S4x4096x64, .f32⟩ : BufTy).Contents (Elt Ideal)) (x1 x2 : (⟨S64x64, .f32⟩ : BufTy).Contents (Elt Ideal))
    (b : Fin 4) (s j : Fin 4096) :
    val_main_v13 (F := Ideal) x0 x1 x2 (ix3 b s j) = weights (logitsR x1 x2 (slab x0 b s) (slab x0 b)) j := by
  rw [val_main_v13_apply, val_main_v12_apply, val_main_v11_apply, val_main_v10_apply, v6_at]
  have ei : idx_main_v10 (idx_main_v11 (ix3 b s j)) = ix2 b s :=
    funext fun a => Fin.ext (by match a with | ⟨0, _⟩ => rfl | ⟨1, _⟩ => rfl)
  rw [ei, v9_at]
  rfl

/-- The weights' total. -/
private theorem v14_at (x0 : (⟨S4x4096x64, .f32⟩ : BufTy).Contents (Elt Ideal)) (x1 x2 : (⟨S64x64, .f32⟩ : BufTy).Contents (Elt Ideal))
    (b : Fin 4) (s : Fin 4096) :
    val_main_v14 (F := Ideal) x0 x1 x2 (ix2 b s) = ∑ j : Fin 4096, weights (logitsR x1 x2 (slab x0 b s) (slab x0 b)) j := by
  rw [val_main_v14_apply, val_main_cst_3_apply]
  show Ideal.ofBits .f32 0x00000000#32 + _ = _
  rw [Ideal.ofBits_zero_f32, zero_add]
  refine Finset.sum_congr rfl fun k _ => ?_
  have ei : idx_main_v14 (ix2 b s) k = ix3 b s k :=
    funext fun a => Fin.ext (by match a with | ⟨0, _⟩ => rfl | ⟨1, _⟩ => rfl | ⟨2, _⟩ => rfl)
  rw [ei, v13_at]

end Stages

theorem ref_eq_GR (x0 : (⟨S4x4096x64, .f32⟩ : BufTy).Contents (Elt Ideal)) (x1 x2 : (⟨S64x64, .f32⟩ : BufTy).Contents (Elt Ideal)) :
    val_main_v18 (F := Ideal) x0 x1 x2 = Cert.Attn.GR x0 x1 x2 := by
  funext i
  obtain ⟨b, s, d, rfl⟩ : ∃ (b : Fin 4) (s : Fin 4096) (d : Fin 64), i = ix3 b s d := ⟨i 0, i 1, i 2, eq_ix3 i⟩
  rw [Cert.Attn.GR_apply, val_main_v18_apply]
  unfold Cert.Attn.attnRowR
  refine Finset.sum_congr rfl fun k _ => ?_
  have el : lidx_main_v18 (ix3 b s d) k = ix3 b s k :=
    funext fun a => Fin.ext (by match a with | ⟨0, _⟩ => rfl | ⟨1, _⟩ => rfl | ⟨2, _⟩ => rfl)
  have er : ridx_main_v18 (ix3 b s d) k = ix3 b k d :=
    funext fun a => Fin.ext (by match a with | ⟨0, _⟩ => rfl | ⟨1, _⟩ => rfl | ⟨2, _⟩ => rfl)
  have ei : idx_main_v15 (idx_main_v16 (ix3 b s k)) = ix2 b s :=
    funext fun a => Fin.ext (by match a with | ⟨0, _⟩ => rfl | ⟨1, _⟩ => rfl)
  rw [el, er, val_main_v17_apply, val_main_v16_apply, val_main_v15_apply, ei, v13_at, v14_at]
  rfl

end Cert.ReferenceIdeal.RefValue

end
-- ==== Proof.LibSumDiv.lean ====
/-
  A sum of products, each second factor divided by one positive extended real, is the sum of the products divided by
  it. On the extended reals multiplication does not distribute over addition in general; it does when the common factor
  is a non-negative number other than +∞, and the inverse of a positive extended real is such a number (the inverse of
  +∞ is 0). No finiteness of the summands is needed.

  `Ideal.div` is the ideal instance's quotient: for a divisor other than 0 it is the product with the inverse.
-/
import Idealize.ShloMosaic.PureOps.Ideal
import Mathlib.Data.EReal.Inv

noncomputable section

namespace Cert.SumDiv

open Idealize.ShloMosaic

/-- A common non-negative factor other than +∞ comes out of a finite sum of extended reals. -/
theorem sum_mul_const {ι : Type} (s : Finset ι) (a : ι → EReal) {k : EReal} (hk : 0 ≤ k) (hk' : k ≠ ⊤) :
    ∑ f ∈ s, a f * k = (∑ f ∈ s, a f) * k := by
  classical
  induction s using Finset.induction_on with
  | empty => simp
  | insert i s hi ih =>
    rw [Finset.sum_insert hi, Finset.sum_insert hi, ih, EReal.right_distrib_of_nonneg_of_ne_top hk hk']

/-- The ideal quotient by a positive extended real is the product with its inverse. -/
theorem div_of_pos {D : EReal} (hD : 0 < D) (x : EReal) : Ideal.div x D = x * D⁻¹ := by
  unfold Ideal.div; rw [if_neg hD.ne']

/-- Dividing each second factor, or the whole sum, by a positive extended real is the same. -/
theorem sum_mul_div {ι : Type} [Fintype ι] (x y : ι → EReal) {D : EReal} (hD : 0 < D) :
    ∑ f, x f * Ideal.div (y f) D = Ideal.div (∑ f, x f * y f) D := by
  rw [div_of_pos hD]
  simp only [div_of_pos hD, ← mul_assoc]
  exact sum_mul_const _ _ (EReal.inv_nonneg_of_nonneg hD.le) (EReal.inv_lt_top D).ne

/-- The same with the divided factor first and the products of the undivided sum commuted. -/
theorem sum_div_mul {ι : Type} [Fintype ι] (x y : ι → EReal) {D : EReal} (hD : 0 < D) :
    ∑ f, x f * Ideal.div (y f) D = Ideal.div (∑ f, y f * x f) D := by
  rw [sum_mul_div x y hD]
  simp only [mul_comm]

/-- The larger of anything and a positive extended real is positive. -/
theorem max_pos_right (a : EReal) {e : EReal} (he : 0 < e) : 0 < max a e := lt_max_of_lt_right he

end Cert.SumDiv

end
-- ==== Proof.Math.lean ====
/-
  The two spellings of an attention row agree when every input entry is a real number.
-/
import proofs.«406537_j65481071409934_3_alg».proof.Proof.Spec
import proofs.«406537_j65481071409934_3_alg».proof.Proof.LibSumDiv
import Mathlib.Data.EReal.Basic
import Mathlib.Data.EReal.Operations
import Mathlib.Data.EReal.Inv
import Mathlib.Data.Finset.Fold
import Mathlib.Algebra.Order.BigOperators.Group.Finset
import Mathlib.Analysis.Real.Sqrt
import Mathlib.Analysis.Complex.Exponential

noncomputable section

namespace Cert.Attn

open Idealize.ShloMosaic Idealize.ShloMosaic.ValueIdx Idealize.ShloMosaic.Rows

variable {S D : ℕ}

/-- The float word of 1 is the number 1. -/
private theorem wOne_eq : wOne = 1 := by
  simp [Ideal.ofBits, Ideal.ieee, -EReal.coe_mul]

/-- The float word of 64 is the real number 64. -/
private theorem wDim_eq : wDim = ((64 : ℝ) : EReal) := by
  simp [Ideal.ofBits, Ideal.ieee, -EReal.coe_mul]; norm_num

/-- The float word of 1/8 is the real number 1/8. -/
private theorem wScale_eq : wScale = ((1 / 8 : ℝ) : EReal) := by
  simp [Ideal.ofBits, Ideal.ieee, -EReal.coe_mul]; norm_num

/-- The word the row maximum is folded from is −∞. -/
private theorem wNegInf_eq : Ideal.ofBits .f32 0xFF800000#32 = ⊥ := by
  simp [Ideal.ofBits, Ideal.ieee]

private theorem wScale_nonneg : 0 ≤ wScale := by
  rw [wScale_eq]; exact EReal.coe_nonneg.mpr (by norm_num)

private theorem wScale_ne_top : wScale ≠ ⊤ := by
  rw [wScale_eq]; exact EReal.coe_ne_top _

/-- 1 / √64 = 1/8: the square root of 64 is 8 because 8 · 8 = 64. -/
private theorem scale_eq : Ideal.div wOne (Ideal.sqrt wDim) = wScale := by
  rw [wOne_eq, wDim_eq, wScale_eq, Ideal.sqrt_coe, if_neg (by norm_num),
    show (64 : ℝ) = 8 ^ 2 by norm_num, Real.sqrt_sq (by norm_num), Ideal.div_coe (by norm_num), one_mul]

/-- Scaling the projected query first, or the finished inner product, gives the same logits: the products commute
    and the non-negative finite scale comes out of the sum. -/
private theorem logits_eq (W E : (⟨2, ![D, D]⟩ : Shape).Idx → EReal) (xq : Fin D → EReal) (X : Fin S → Fin D → EReal) :
    logits W E xq X = logitsR W E xq X := by
  funext j
  unfold logits logitsR
  rw [scale_eq, ← Cert.SumDiv.sum_mul_const _ _ wScale_nonneg wScale_ne_top]
  exact Finset.sum_congr rfl fun e _ => mul_right_comm _ _ _

/-- A product of two real numbers is a real number. -/
private theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- A finite sum of real numbers is a real number. -/
private theorem real_sum {ι : Type} (s : Finset ι) (f : ι → EReal) (h : ∀ i, ∃ r : ℝ, f i = (r : EReal)) :
    ∃ r : ℝ, ∑ i ∈ s, f i = (r : EReal) := by
  classical
  induction s using Finset.induction_on with
  | empty => exact ⟨0, by simp⟩
  | insert i s hi ih =>
    obtain ⟨x, hx⟩ := h i
    obtain ⟨y, hy⟩ := ih
    exact ⟨x + y, by rw [Finset.sum_insert hi, hx, hy, EReal.coe_add]⟩

/-- A real row times a real matrix is a real row. -/
private theorem real_proj (W : (⟨2, ![D, D]⟩ : Shape).Idx → EReal) (v : Fin D → EReal) (hW : IsReal W) (hv : IsReal v) :
    IsReal (proj W v) := fun e => by
  show ∃ r : ℝ, ∑ d : Fin D, v d * W (ix2 d e) = (r : EReal)
  exact real_sum _ _ fun d => real_mul (hv d) (hW _)

/-- The logits of real inputs are real numbers. -/
private theorem real_logitsR (W E : (⟨2, ![D, D]⟩ : Shape).Idx → EReal) (xq : Fin D → EReal) (X : Fin S → Fin D → EReal)
    (hW : IsReal W) (hE : IsReal E) (hq : IsReal xq) (hX : ∀ j, IsReal (X j)) : IsReal (logitsR W E xq X) := fun j => by
  show ∃ r : ℝ, (∑ e : Fin D, proj W xq e * proj E (X j) e) * Ideal.div wOne (Ideal.sqrt wDim) = (r : EReal)
  rw [scale_eq, wScale_eq]
  exact real_mul (real_sum _ _ fun e => real_mul (real_proj W xq hW hq e) (real_proj E (X j) hE (hX j) e)) ⟨_, rfl⟩

/-- Every weight of a non-empty real row is positive: the row's maximum is a real number (below +∞ because every
    entry is, above −∞ because it is at least the first entry), so the weight is exp of a real number. -/
private theorem weights_pos (hS : 0 < S) (s : Fin S → EReal) (hs : IsReal s) (j : Fin S) : 0 < weights s j := by
  have hlt : rowMax s < ⊤ := by
    unfold rowMax
    rw [wNegInf_eq, Finset.fold_max_lt]
    exact ⟨bot_lt_top, fun x _ => by obtain ⟨r, hr⟩ := hs x; rw [hr]; exact EReal.coe_lt_top r⟩
  have hgt : ⊥ < rowMax s := by
    obtain ⟨r, hr⟩ := hs ⟨0, hS⟩
    have hle : s ⟨0, hS⟩ ≤ rowMax s := by
      unfold rowMax
      exact (Finset.le_fold_max _).mpr (Or.inr ⟨_, Finset.mem_univ _, le_rfl⟩)
    exact lt_of_lt_of_le (by rw [hr]; exact EReal.bot_lt_coe r) hle
  obtain ⟨a, ha⟩ := hs j
  have hm : ((rowMax s).toReal : EReal) = rowMax s := EReal.coe_toReal hlt.ne hgt.ne'
  show 0 < Ideal.exp (s j - rowMax s)
  rw [ha, ← hm, ← EReal.coe_sub, Ideal.exp_coe]
  exact EReal.coe_pos.mpr (Real.exp_pos _)

/-- The total of the weights of a non-empty real row is positive: it is at least its first term. -/
private theorem total_pos (hS : 0 < S) (s : Fin S → EReal) (hs : IsReal s) : 0 < ∑ j : Fin S, weights s j :=
  lt_of_lt_of_le (weights_pos hS s hs ⟨0, hS⟩)
    (Finset.single_le_sum (f := weights s) (fun i _ => (weights_pos hS s hs i).le) (Finset.mem_univ _))

theorem attnRowR_eq_attnRow (hS : 0 < S) (W E : (⟨2, ![D, D]⟩ : Shape).Idx → EReal) (xq : Fin D → EReal)
    (X : Fin S → Fin D → EReal) (hW : IsReal W) (hE : IsReal E) (hq : IsReal xq) (hX : ∀ j, IsReal (X j)) :
    attnRowR W E xq X = attnRow W E xq X := by
  funext d
  have hl := total_pos hS _ (real_logitsR W E xq X hW hE hq hX)
  unfold attnRowR attnRow
  rw [logits_eq, Cert.SumDiv.div_of_pos hl wOne, wOne_eq, one_mul,
    ← Cert.SumDiv.sum_mul_const _ _ (EReal.inv_nonneg_of_nonneg hl.le) (EReal.inv_lt_top _).ne]
  refine Finset.sum_congr rfl fun j _ => ?_
  rw [Cert.SumDiv.div_of_pos hl, mul_right_comm]

theorem GR_eq_G {B : ℕ} (hS : 0 < S) (x : (⟨3, ![B, S, D]⟩ : Shape).Idx → EReal) (W E : (⟨2, ![D, D]⟩ : Shape).Idx → EReal)
    (hx : IsReal x) (hW : IsReal W) (hE : IsReal E) : GR x W E = G x W E := by
  funext i
  show attnRowR W E (slab x (i 0) (i 1)) (slab x (i 0)) (i 2) = attnRow W E (slab x (i 0) (i 1)) (slab x (i 0)) (i 2)
  exact congrFun (attnRowR_eq_attnRow hS W E _ _ hW hE (fun e => hx _) (fun j e => hx _)) _

end Cert.Attn

end
-- ==== Proof.Finite.lean ====
/-
  The precondition says every input entry is a real number.
-/
import proofs.«406537_j65481071409934_3_alg».proof.Proof.Gen.Pre_finite_inputs
import proofs.«406537_j65481071409934_3_alg».proof.Proof.Spec
import Idealize.ShloMosaic.Lib.ReduceAll

noncomputable section

namespace Cert.Finite

open Idealize.ShloMosaic Idealize.ShloMosaic.ValueIdx

/-- The word 0x7F800000 denotes +∞. -/
private theorem inf_word : Ideal.ofBits .f32 0x7F800000#32 = (⊤ : EReal) := by
  simp [Ideal.ofBits, Ideal.ieee]

/-- An extended real whose absolute value max x (−x) compares below +∞ is a real number:
    −∞ has absolute value +∞, and +∞ is not below itself. -/
private theorem real_of_abs_lt (x : EReal)
    (h : Ideal.cmp .olt (max x (-x)) (Ideal.ofBits .f32 0x7F800000#32) = 1#1) :
    ∃ r : ℝ, x = (r : EReal) := by
  rw [inf_word] at h
  have hlt : max x (-x) < (⊤ : EReal) := by
    by_contra hc
    simp [Ideal.cmp, hc] at h
  induction x using EReal.rec with
  | bot => simp at hlt
  | coe r => exact ⟨r, rfl⟩
  | top => simp at hlt

private instance : Subsingleton Cert.Pre_finite_inputs.S_.Idx :=
  ⟨fun a b => funext fun d => d.elim0⟩

/-- An array all of whose entries have absolute value below the broadcast +∞, as an all-axes
    conjunction started at true reports, is an array of real numbers. -/
private theorem isReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim s ![] hb (constant Cert.Pre_finite_inputs.S_ .f32 0x7F800000#32)))
          (constantI Cert.Pre_finite_inputs.S_ 1 1#1) hr hu j = 1#1) :
    Cert.Attn.IsReal x := by
  intro i
  have hi := Host.reduce_andi_all _ _ hr hu j e i
  exact real_of_abs_lt (x i) hi

theorem real_of_pre [Cert.Pre_finite_inputs.Facts]
    (a0 : FVec Ideal Cert.Pre_finite_inputs.S4x4096x64 .f32) (a1 a2 : FVec Ideal Cert.Pre_finite_inputs.S64x64 .f32)
    (h : Cert.Pre_finite_inputs.fn (F := Ideal) a0 a1 a2 = fun _ => 1#1) :
    Cert.Attn.IsReal a0 ∧ Cert.Attn.IsReal a1 ∧ Cert.Attn.IsReal a2 := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨isReal_of_all a0 _ _ _ _ h0', isReal_of_all a1 _ _ _ _ h1, isReal_of_all a2 _ _ _ _ h2⟩

end Cert.Finite

end
-- ==== Proof.lean ====
/-
  Single-head attention over four slabs of 4096 rows of 64 features, the values being the raw inputs:
  a kernel that handles one (slab, 512-query tile) pair per grid point, against a reference that forms the
  whole 4096 × 4096 score matrix of every slab.

  Both compute, for query row s of slab b,  out (b, s, ·) = ∑ⱼ softmaxⱼ (logits) · x (b, j, ·)  with
  logits j = ⟨x (b, s)·rotation, x (b, j)·entangle⟩ / √64. They differ in two places. The kernel multiplies the
  projected query by the float 1/8 before the inner products are taken, the reference multiplies the finished inner
  product by 1 / √64: over the reals √64 = 8, and a non-negative finite factor comes out of a finite sum of extended
  reals. The kernel multiplies the weighted sum of value rows by the reciprocal of the weights' total, the reference
  divides every weight by the total first: the total is a positive real because every input entry is a real number
  (the precondition), so the maximum logit is real, one weight is exp 0 = 1 and the others are positive; then the
  reciprocal of the total is a non-negative finite factor and comes out of the sum as well.

  The kernel's side: the frame of each of the two printed kernel programs (FrameK.lean, FrameKI.lean: the launch hands
  `inputs` to two windows, so its share is dealt in halves), the value each grid point writes back read at an index
  (Payload.lean), and the 32 written blocks tiling the result array (ValueKI.lean). The reference's side: its run is the
  generated module's, its stages read one by one as the second spelling of the attention row (Ref.lean). The two
  spellings agree on real inputs (Math.lean), and the precondition says the inputs are real (Finite.lean).
  The idealized kernel is the printed kernel's own text read at the extended reals: nothing was rewritten.
-/
import proofs.«406537_j65481071409934_3_alg».proof.Defs
import proofs.«406537_j65481071409934_3_alg».proof.Proof.Gen.Kernel
import proofs.«406537_j65481071409934_3_alg».proof.Proof.Gen.KernelIdeal
import proofs.«406537_j65481071409934_3_alg».proof.Proof.Gen.ReferenceIdeal
import proofs.«406537_j65481071409934_3_alg».proof.Proof.Gen.Pre_finite_inputs
import proofs.«406537_j65481071409934_3_alg».proof.Proof.Gen.ReferenceIdeal.Run
import proofs.«406537_j65481071409934_3_alg».proof.Proof.Gen.ReferenceIdeal.Read
import proofs.«406537_j65481071409934_3_alg».proof.Proof.FrameK
import proofs.«406537_j65481071409934_3_alg».proof.Proof.ValueKI
import proofs.«406537_j65481071409934_3_alg».proof.Proof.Ref
import proofs.«406537_j65481071409934_3_alg».proof.Proof.Math
import proofs.«406537_j65481071409934_3_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result array at the attention of every slab: the kernel's in the first spelling, the
    reference's in the second, equal because the precondition makes every input entry real. -/
theorem algebraic : Cert.algebraic_KernelIdeal_ReferenceIdeal := by
  intro m ρ m' ρ' hpre hagree
  refine ⟨fun c => Cert.Attn.G (B := 4) (S := 4096) (D := 64)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.ref_eq_GR, (hagree c).1, (hagree c).2.1, (hagree c).2.2]
  obtain ⟨h0, h1, h2⟩ := Cert.Finite.real_of_pre _ _ _ (hpre c)
  exact Cert.Attn.GR_eq_G (by norm_num) _ _ _ h0 h1 h2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
